-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S128x64 .f32) (main_arg5 : FVec F S64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) (main_arg6 : FVec F S128x64 .f32) (main_arg7 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S10000x64 : Shape := ⟨2, ![10000, 64]⟩
abbrev S400x10000 : Shape := ⟨2, ![400, 10000]⟩
abbrev S400x64 : Shape := ⟨2, ![400, 64]⟩
abbrev S400x128 : Shape := ⟨2, ![400, 128]⟩

abbrev nBuf : Space → Nat
  | .hbm => 17
  | .vmem => 12
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S10000x128, .bf16⟩
  | .hbm, ⟨9, _⟩ => ⟨S128x128, .bf16⟩
  | .hbm, ⟨10, _⟩ => ⟨S128x128, .f32⟩
  | .hbm, ⟨11, _⟩ => ⟨S128x128, .bf16⟩
  | .hbm, ⟨12, _⟩ => ⟨S1x128, .f32⟩
  | .hbm, ⟨13, _⟩ => ⟨S128, .f32⟩
  | .hbm, ⟨14, _⟩ => ⟨S1x128, .f32⟩
  | .hbm, ⟨15, _⟩ => ⟨S10000x64, .f32⟩
  | .hbm, ⟨16, _⟩ => ⟨S10000x64, .f32⟩
  | .local _ .vmem, ⟨0, _⟩ => ⟨S400x10000, .f32⟩
  | .local _ .vmem, ⟨1, _⟩ => ⟨S400x10000, .f32⟩
  | .local _ .vmem, ⟨2, _⟩ => ⟨S10000x128, .bf16⟩
  | .local _ .vmem, ⟨3, _⟩ => ⟨S128x128, .bf16⟩
  | .local _ .vmem, ⟨4, _⟩ => ⟨S1x128, .f32⟩
  | .local _ .vmem, ⟨5, _⟩ => ⟨S128x128, .bf16⟩
  | .local _ .vmem, ⟨6, _⟩ => ⟨S1x128, .f32⟩
  | .local _ .vmem, ⟨7, _⟩ => ⟨S400x64, .f32⟩
  | .local _ .vmem, ⟨8, _⟩ => ⟨S400x64, .f32⟩
  | .local _ .vmem, ⟨9, _⟩ => ⟨S400x64, .f32⟩
  | .local _ .vmem, ⟨10, _⟩ => ⟨S400x64, .f32⟩
  | .local _ .vmem, ⟨11, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 25], ![false, false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_1 : BitVec 32 := 0#32
  let v4 : BitVec 1 := Scalar.cmpi .ne v3 c0_i32_1
  v4

def k0_off1 (i : grid0.Coords) : Fin 2 → Nat :=
  let arg1 : BitVec 32 := BitVec.ofNat 32 (i 1).val
  let c400_i32 : BitVec 32 := 400#32
  let v26 : BitVec 32 := Scalar.muli arg1 c400_i32
  let v27 : Index := Scalar.indexCast v26
  let c0_14 : Index := 0#32
  ![v27.toNat, 0]
def k0_cond2 (i : grid0.Coords) : BitVec 1 :=
  let arg0 : BitVec 32 := BitVec.ofNat 32 (i 0).val
  let c1_i32 : BitVec 32 := 1#32
  let v5 : BitVec 1 := Scalar.cmpi .eq arg0 c1_i32
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S400x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  concatenates_S128x64_S128x64_S128x128_d1 : Shape.Concatenates [S128x64, S128x64] S128x128 1
  shapeCasts_S128_S1x128 : S128.ShapeCasts S1x128
  concatenates_S64_S64_S128_d0 : Shape.Concatenates [S64, S64] S128 0
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  h_S400x128 : 0 < S400x128.numel
  shapeCasts_S400x128_S400x128 : S400x128.ShapeCasts S400x128
  slices_S400x128_o0_0_S400x64 : S400x128.Slices ![0, 0] S400x64
  inb_S400x64_S400x64_0_0 : ∀ a, (![0, 0] : Fin 2 → Nat) a + S400x64.size a ≤ S400x64.size a
  h_S400x64 : 0 < S400x64.numel
  slices_S400x128_o0_64_S400x64 : S400x128.Slices ![0, 64] S400x64
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ (k0_h1 : k0_cond1 i = 1#1), ∀ a, (k0_off1 i) a + S400x128.size a ≤ S10000x128.size a
  k0_off1_packedbf16 : ∀ i : grid0.Coords, ∀ (k0_h1 : k0_cond1 i = 1#1), (Rect.unit (s := S10000x128) (k0_off1 i) S400x128.size (k0_off1_inb i k0_h1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x64.size a ≤ S10000x64.size a
  hwx0_6 : ∀ i : grid0.Coords, EltTy.bits .f32 = 32 ∨ (Rect.block (s := S10000x64) S400x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x64.size a ≤ S10000x64.size a
  hwx0_7 : ∀ i : grid0.Coords, EltTy.bits .f32 = 32 ∨ (Rect.block (s := S10000x64) S400x64.size (cc0_transform_7 i) (hinb0_7 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S400x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S400x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩

abbrev nBuf : Space → Nat
  | .hbm => 27
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x64, .f32⟩
  | .hbm, ⟨17, _⟩ => ⟨S10000x64, .f32⟩
  | .hbm, ⟨18, _⟩ => ⟨S1x64, .f32⟩
  | .hbm, ⟨19, _⟩ => ⟨S10000x64, .f32⟩
  | .hbm, ⟨20, _⟩ => ⟨S10000x64, .f32⟩
  | .hbm, ⟨21, _⟩ => ⟨S10000x64, .f32⟩
  | .hbm, ⟨22, _⟩ => ⟨S10000x64, .f32⟩
  | .hbm, ⟨23, _⟩ => ⟨S1x64, .f32⟩
  | .hbm, ⟨24, _⟩ => ⟨S10000x64, .f32⟩
  | .hbm, ⟨25, _⟩ => ⟨S10000x64, .f32⟩
  | .hbm, ⟨26, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.KernelSetup.lean ====
/-
  What the two phases of the encoder kernel share: which grid points are in which phase, where the two result
  windows are idle, the staging memrefs the body is called with, and the region invariant with the scratch named.

  The grid is 2 × 25, phase-major: points 0 … 24 are phase 0 (row block `t` of the projected hidden layer is stored
  into rows `[400 t, 400 t + 400)` of the scratch), points 25 … 49 are phase 1 (row block `t - 25` of both results is
  computed from the whole scratch). The result windows' block index is `i · p`: constant through phase 0, where the
  body stores nothing into them and nothing is written back.
-/
import proofs.«176933_g20486994002744_cont_8to1_9_11_alg».proof.Proof.Gen.Kernel.Frame
import proofs.«176933_g20486994002744_cont_8to1_9_11_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two phases -/

/-- Phase 0: the first grid coordinate is 0. -/
abbrev cond0_0 (i : grid0.Coords) : Prop := k0_cond1 i = 1#1
/-- Phase 0 is the points before point 25. -/
theorem hcond0_0 : ∀ t : Fin cfg0.N, cond0_0 (grid0.coords t) ↔ t.val < 25 :=
  (by decide +kernel : ∀ t : Fin grid0.N, cond0_0 (grid0.coords t) ↔ t.val < 25)

/-- Phase 1: the first grid coordinate is 1. -/
abbrev cond0_1 (i : grid0.Coords) : Prop := k0_cond2 i = 1#1
/-- Phase 1 is the points from point 25 on. -/
theorem hcond0_1 : ∀ t : Fin cfg0.N, cond0_1 (grid0.coords t) ↔ 25 ≤ t.val :=
  (by decide +kernel : ∀ t : Fin grid0.N, cond0_1 (grid0.coords t) ↔ 25 ≤ t.val)

/-- In phase 0 the scratch slice stored is rows `[400 t, 400 t + 400)`, every column. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Through phase 0 the first result window is idle and is not written back. -/
theorem idleAt0_6_A : ∀ t : Fin cfg0.N, t.val < 25 → cfg0.idle 6 (grid0.coords t) = true := by decide +kernel
theorem noFlush0_6_A : ∀ t : Fin cfg0.N, t.val < 25 → (cfg0.win 6).flush t = false := by decide +kernel
/-- In phase 1 it is live. -/
theorem liveAt0_6_B : ∀ t : Fin cfg0.N, 25 ≤ t.val → cfg0.idle 6 (grid0.coords t) = false := by decide +kernel
/-- The same for the second result window. -/
theorem idleAt0_7_A : ∀ t : Fin cfg0.N, t.val < 25 → cfg0.idle 7 (grid0.coords t) = true := by decide +kernel
theorem noFlush0_7_A : ∀ t : Fin cfg0.N, t.val < 25 → (cfg0.win 7).flush t = false := by decide +kernel
theorem liveAt0_7_B : ∀ t : Fin cfg0.N, 25 ≤ t.val → cfg0.idle 7 (grid0.coords t) = false := by decide +kernel

/-! ## The memrefs the body is called with -/

abbrev ms0_0 (t : Fin cfg0.N) : Memref sig .tc .vmem S400x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S400x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S400x64 .f32 := win0_7.stage (cfg0.slots t 7)
abbrev hs0_7 (t : Fin cfg0.N) : (ms0_7 t).IsWhole := hstage0_7 ((cfg0.slots t 7).cast nbuf0_7)
/-- The scratch: a whole scoped buffer of the kernel's own. -/
abbrev scM0_0 : Memref sig .tc .vmem S10000x128 .bf16 := Memref.whole cc0_scratch0

/-- The class invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KernelRunA.lean ====
/-
  Phase 0 of the kernel body, on whole staging memrefs: from the adjacency row block and the four small operands it
  computes one 400 × 128 block of the projected hidden layer and stores it into rows `[o, o + 400)` of the scratch;
  every other row of the scratch, the six inputs and the two result buffers are left as they were found.
-/
import proofs.«176933_g20486994002744_cont_8to1_9_11_alg».proof.Proof.KernelSetup
import Idealize.ShloMosaic.Lib.WritesUnit
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- `S'` is `xs` with the block `p` written over rows `[o, o + 400)`: outside those rows it is `xs`, and row
    `o + r`, column `j` holds `p` at `(r, j)`. -/
def StoredRows (o : ℕ) (p : Vec F S400x128 .bf16) (xs S' : Vec F S10000x128 .bf16) : Prop :=
  (∀ y : S10000x128.Idx, ((y (0 : Fin 2)).val < o ∨ o + 400 ≤ (y (0 : Fin 2)).val) → S' y = xs y) ∧
  (∀ (y : S10000x128.Idx) (x : S400x128.Idx), (y (0 : Fin 2)).val = o + (x (0 : Fin 2)).val → (y (1 : Fin 2)).val = (x (1 : Fin 2)).val → S' y = p x)

private theorem hz2 : (![0, 0] : Fin 2 → ℕ) = fun _ => 0 := by funext a; fin_cases a <;> rfl

set_option maxHeartbeats 1000000 in
/-- The body's triple in phase 0. The scratch slice's row offset `o` is given by its closed form `ho`. -/
theorem runA (c : Dev nD) (i : grid0.Coords) (arg2 : Memref sig .tc .vmem S400x10000 .f32) (harg2 : arg2.IsWhole) (arg3 : Memref sig .tc .vmem S10000x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S400x64 .f32) (harg8 : arg8.IsWhole) (arg9 : Memref sig .tc .vmem S400x64 .f32) (harg9 : arg9.IsWhole) (arg10 : Memref sig .tc .vmem S10000x128 .bf16) (harg10 : arg10.IsWhole) (hc0 : cond0_0 i) (hc1 : ¬cond0_1 i)
    (o : ℕ) (ho : k0_off1 i = ![o, 0])
    (x0 : Vec F S400x10000 .f32) (x1 : Vec F S10000x128 .bf16) (x2 : Vec F S128x128 .bf16) (x3 : Vec F S1x128 .f32) (x4 : Vec F S128x128 .bf16) (x5 : Vec F S1x128 .f32) (xi6 xi7 : Vec F S400x64 .f32) (xs : Vec F S10000x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ S', owns (c : Thread nD τ) arg10 fullShare S' ∗ ⌜StoredRows o (k0_pay2 x0 x1 x2 x3 x4) xs S'⌝)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _
    isplitl [HS0]
    · iexists _; isplitr; swap; · iexact HS0
      ipureintro; rfl
    ipureintro
    simp only [View.readAt_eq_ld, harg2.read_unread, harg3.read_unread, harg4.read_unread, harg5.read_unread, harg6.read_unread,
      View.ld_unit_zero (S := S400x10000) hz2, View.ld_unit_zero (S := S10000x128) hz2, View.ld_unit_zero (S := S128x128) hz2,
      View.ld_unit_zero (S := S1x128) hz2]
    refine ⟨fun y hy => ?_, fun y x h0 h1 => ?_⟩
    · rw [View.read_writes_cons_rows_of_not_mem arg10.view _ _ _ [] y ho rfl hy, View.writes_nil, harg10.read_unread]
    · exact View.read_writes_cons_rows_of_mem arg10.view _ _ _ [] y x ho h0 h1

end Cert.Kernel.Hand

end
-- ==== Proof.KernelData.lean ====
/-
  What the scratch holds between grid points, and the proof data of the pipeline.

  The projected hidden layer `HP` is one 10000 × 128 array: row `r` is row `r % 400` of the block that the phase-0
  point `r / 400` computes from its adjacency row block and the four small operands. Before point `n` the scratch
  agrees with `HP` on its first `400 n` rows (nothing is known of the others: the scratch starts at anything); from
  point 25 on that is the whole of it. In phase 1 each result block is the body's function of the adjacency row block,
  `HP` and the joined bias row.
-/
import proofs.«176933_g20486994002744_cont_8to1_9_11_alg».proof.Proof.KernelRunA
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The block of the projected hidden layer computed at point `t` (stored there when `t` is in phase 0). -/
def hpBlk (c : Dev nD) (t : Fin cfg0.N) : Vec F S400x128 .bf16 :=
  k0_pay2 (iblk m c 0 t) (iblk m c 1 t) (iblk m c 2 t) (iblk m c 3 t) (iblk m c 4 t)

/-- The phase-0 point whose block holds row `r`. -/
def rowPt (r : ℕ) (hr : r < 10000) : Fin cfg0.N := ⟨r / 400, by have : cfg0.N = 50 := N_0; omega⟩

/-- The projected hidden layer, all rows. -/
def HP (c : Dev nD) : Vec F S10000x128 .bf16 := fun y =>
  hpBlk m c (rowPt (y (0 : Fin 2)).val (idx2_lt0 y))
    (ix2 (⟨(y (0 : Fin 2)).val % 400, Nat.mod_lt _ (by norm_num)⟩ : Fin 400) (⟨(y (1 : Fin 2)).val, idx2_lt1 y⟩ : Fin 128))

/-- The scratch contents `S` agree with the projected hidden layer on the first `400 n` rows. -/
def ScInv (c : Dev nD) (n : ℕ) (S : Vec F S10000x128 .bf16) : Prop :=
  ∀ y : S10000x128.Idx, (y (0 : Fin 2)).val < 400 * n → S y = HP m c y

theorem scInv_zero (c : Dev nD) (S : Vec F S10000x128 .bf16) : ScInv m c 0 S := fun y h => absurd h (by omega)

/-- From point 25 on the rows are all of them. -/
theorem scInv_full (c : Dev nD) (n : ℕ) (hn : 25 ≤ n) (S : Vec F S10000x128 .bf16) (h : ScInv m c n S) : S = HP m c :=
  funext fun y => h y (by have := idx2_lt0 y; omega)

theorem scInv_self (c : Dev nD) (n : ℕ) : ScInv m c n (HP m c) := fun _ _ => rfl

/-- Storing point `t`'s block into rows `[400 t, 400 t + 400)` extends the agreement by those rows. -/
theorem scInv_step (c : Dev nD) (t : Fin cfg0.N) (ht : t.val < 25) (S S' : Vec F S10000x128 .bf16)
    (h : ScInv m c t.val S) (hs : StoredRows (400 * t.val) (hpBlk m c t) S S') : ScInv m c (t.val + 1) S' := by
  intro y hy
  by_cases h1 : (y (0 : Fin 2)).val < 400 * t.val
  · rw [hs.1 y (Or.inl h1)]; exact h y h1
  · have hlt : (y (0 : Fin 2)).val < 10000 := idx2_lt0 y
    rw [hs.2 y (ix2 (⟨(y (0 : Fin 2)).val - 400 * t.val, by omega⟩ : Fin 400) (⟨(y (1 : Fin 2)).val, idx2_lt1 y⟩ : Fin 128))
      (by show (y (0 : Fin 2)).val = 400 * t.val + ((y (0 : Fin 2)).val - 400 * t.val); omega) rfl]
    unfold HP
    have e1 : rowPt (y (0 : Fin 2)).val (idx2_lt0 y) = t := Fin.ext (by show (y (0 : Fin 2)).val / 400 = t.val; omega)
    rw [e1]
    congr 1
    funext a
    match a with
    | ⟨0, _⟩ => exact Fin.ext (by show (y (0 : Fin 2)).val - 400 * t.val = (y (0 : Fin 2)).val % 400; omega)
    | ⟨1, _⟩ => rfl

/-- The region invariant before point `n`: the scratch at contents that agree with the projected hidden layer on the
    first `400 n` rows, and the generator register at some state. -/
def PhiS (c : Dev nD) (n : ℕ) : sProp 𝕄 :=
  iprop((∃ S, owns (c : Thread nD τ) scM0_0 fullShare S ∗ ⌜ScInv m c n S⌝) ∗ (∃ r, prngReg c r))

/-- The proof data of the pipeline on core `c`: the arrays as the region finds them; after the body each input's
    buffer at its block, each result's buffer at the phase-1 function of the adjacency row block, the projected hidden
    layer and the joined bias row (in phase 0 the result windows are idle and this is not consulted); the invariant
    `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay4 (iblk m c 0 t) (HP m c) (iblk m c 5 t)
    | ⟨7, _⟩ => k0_pay5 (iblk m c 0 t) (HP m c) (iblk m c 5 t)
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = k0_pay4 (iblk m c 0 t) (HP m c) (iblk m c 5 t) := by dsimp only [dats]
theorem after0_7 (c : Dev nD) (t : Fin cfg0.N) : (dats m 0 c).after 7 t = k0_pay5 (iblk m c 0 t) (HP m c) (iblk m c 5 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

end Cert.Kernel.Hand

end
-- ==== Proof.KernelRunB.lean ====
/-
  Phase 1 of the kernel body, on whole staging memrefs: from the adjacency row block, the whole scratch (the projected
  hidden layer) and the joined bias row it computes one 400 × 64 block of each result and stores each whole into its
  result buffer, whatever the buffers held; the six inputs and the scratch are left as they were found.
-/
import proofs.«176933_g20486994002744_cont_8to1_9_11_alg».proof.Proof.KernelSetup
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

private theorem hz2 : (![0, 0] : Fin 2 → ℕ) = fun _ => 0 := by funext a; fin_cases a <;> rfl

set_option maxHeartbeats 1000000 in
/-- The body's triple in phase 1. -/
theorem runB (c : Dev nD) (i : grid0.Coords) (arg2 : Memref sig .tc .vmem S400x10000 .f32) (harg2 : arg2.IsWhole) (arg3 : Memref sig .tc .vmem S10000x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S400x64 .f32) (harg8 : arg8.IsWhole) (arg9 : Memref sig .tc .vmem S400x64 .f32) (harg9 : arg9.IsWhole) (arg10 : Memref sig .tc .vmem S10000x128 .bf16) (harg10 : arg10.IsWhole) (hc0 : ¬cond0_0 i) (hc1 : cond0_1 i)
    (x0 : Vec F S400x10000 .f32) (x1 : Vec F S10000x128 .bf16) (x2 : Vec F S128x128 .bf16) (x3 : Vec F S1x128 .f32) (x4 : Vec F S128x128 .bf16) (x5 : Vec F S1x128 .f32) (xs : Vec F S10000x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 x0 xs x5) ∗ owns (c : Thread nD τ) arg9 fullShare (k0_pay5 x0 xs x5) ∗ owns (c : Thread nD τ) arg10 fullShare xs) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, %hf6, H6⟩, ⟨%d7, %f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [View.read_writes_eq_canon _ _ _ (fun y => ⟨_, List.mem_singleton_self _, View.mem_set_unit_zero hz2 Facts₀.inb_S400x64_S400x64_0_0 y⟩),
        View.canon_unit_zero hz2]
      simp only [View.readAt_eq_ld, harg2.read_unread, harg7.read_unread, harg10.read_unread,
        View.ld_unit_zero (S := S400x10000) hz2, View.ld_unit_zero (S := S10000x128) hz2, View.ld_unit_zero (S := S1x128) hz2]
    isplitl [H7]
    · iexists _; isplitr; swap; · iexact H7
      ipureintro
      rw [View.read_writes_eq_canon _ _ _ (fun y => ⟨_, List.mem_singleton_self _, View.mem_set_unit_zero hz2 Facts₀.inb_S400x64_S400x64_0_0 y⟩),
        View.canon_unit_zero hz2]
      simp only [View.readAt_eq_ld, harg2.read_unread, harg7.read_unread, harg10.read_unread,
        View.ld_unit_zero (S := S400x10000) hz2, View.ld_unit_zero (S := S10000x128) hz2, View.ld_unit_zero (S := S1x128) hz2]
    iexists _; isplitr; · ipureintro; exact harg10.read_unread _
    iexact HS0

end Cert.Kernel.Hand

end
-- ==== Proof.KernelBody.lean ====
/-
  The body obligation of the pipeline, the run of the whole program, and the frame.

  At a phase-0 point the scratch is handed to the body at contents that agree with the projected hidden layer on the
  rows already stored, and comes back agreeing on 400 rows more; the two result buffers, idle there, go through
  untouched. At a phase-1 point the scratch holds the whole projected hidden layer, is only read, and each result
  buffer comes back at its block. Before the first point the invariant asks nothing of the scratch, and after the
  last it is forgotten.
-/
import proofs.«176933_g20486994002744_cont_8to1_9_11_alg».proof.Proof.KernelData
import proofs.«176933_g20486994002744_cont_8to1_9_11_alg».proof.Proof.KernelRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem Phi_castSucc (c : Dev nD) (t : Fin cfg0.N) : (dats m 0 c).Φ t.castSucc = PhiS m c t.val := by
  dsimp only [dats]; simp only [Fin.coe_castSucc]

theorem Phi_succ (c : Dev nD) (t : Fin cfg0.N) : (dats m 0 c).Φ t.succ = PhiS m c (t.val + 1) := by
  dsimp only [dats]; simp only [Fin.val_succ]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [Phi_castSucc, Phi_succ]
  unfold PhiS
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases h0 : t.val < 25
  · have h1 : ¬ 25 ≤ t.val := by omega
    rw [Dat.leavesExact_idle (dats m 0 c) 6 t (idleAt0_6_A t h0) (noFlush0_6_A t h0)]
    rw [Dat.leavesExact_idle (dats m 0 c) 7 t (idleAt0_7_A t h0) (noFlush0_7_A t h0)]
    iintro ⟨⟨⟨%S, HS0, %hS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c (grid0.coords t) _ _ _ _ _ _ _ _ _ _ _ _ _ _ _ _ _ _ ((hcond0_0 t).mpr h0) (fun h => h1 ((hcond0_1 t).mp h)) (400 * t.val) (off1_eq t h0) (iblk m c 0 t) (iblk m c 1 t) (iblk m c 2 t) (iblk m c 3 t) (iblk m c 4 t) (iblk m c 5 t) _ _ S) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iintro ⟨H0, H1, H2, H3, H4, H5, H6, H7, ⟨%S', HS0, %hS'⟩⟩
    isplitl [HS0 Hg]
    · isplitl [HS0]
      · iexists S'
        isplitl [HS0]; · iexact HS0
        ipureintro; exact scInv_step m c t h0 S S' hS hS'
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · have h1 : 25 ≤ t.val := by omega
    rw [show (dats m 0 c).leavesExact 6 t = owns (c : Thread nD τ) (ms0_6 t) fullShare ((dats m 0 c).after 6 t) from by
        unfold Dat.leavesExact; rw [liveAt0_6_B t h1], after0_6]
    rw [show (dats m 0 c).leavesExact 7 t = owns (c : Thread nD τ) (ms0_7 t) fullShare ((dats m 0 c).after 7 t) from by
        unfold Dat.leavesExact; rw [liveAt0_7_B t h1], after0_7]
    iintro ⟨⟨⟨%S, HS0, %hS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain rfl := scInv_full m c t.val h1 S hS
    iapply ((runB c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (HP m c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]
      · iexists _
        isplitl [HS0]; · iexact HS0
        ipureintro; exact scInv_self m c _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is asked of the scratch. -/
theorem hin (c : Dev nD) : Pipeline.ΦA spec0 c ⊢ (dats m 0 c).Φ 0 := by
  rw [show (dats m 0 c).Φ 0 = PhiS m c 0 from rfl, PhiA0_eq]
  unfold PhiS
  iintro ⟨⟨%d, HS0⟩, Hg⟩
  isplitl [HS0]
  · iexists d
    isplitl [HS0]; · iexact HS0
    ipureintro; exact scInv_zero m c d
  iexact Hg

/-- After the last point the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨%S, HS0, -⟩, Hg⟩
  isplitl [HS0]
  · iexists S; iexact HS0
  iexact Hg

set_option backward.isDefEq.respectTransparency.types false in
/-- Every weakly fair execution of the program terminates, with every array of the pipeline at what the library
    computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its eight argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Hand

end
-- ==== Proof.KernelIdealSetup.lean ====
/-
  What the two phases of the encoder kernel share: which grid points are in which phase, where the two result
  windows are idle, the staging memrefs the body is called with, and the region invariant with the scratch named.

  The grid is 2 × 25, phase-major: points 0 … 24 are phase 0 (row block `t` of the projected hidden layer is stored
  into rows `[400 t, 400 t + 400)` of the scratch), points 25 … 49 are phase 1 (row block `t - 25` of both results is
  computed from the whole scratch). The result windows' block index is `i · p`: constant through phase 0, where the
  body stores nothing into them and nothing is written back.
-/
import proofs.«176933_g20486994002744_cont_8to1_9_11_alg».proof.Proof.Gen.KernelIdeal.Frame
import proofs.«176933_g20486994002744_cont_8to1_9_11_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two phases -/

/-- Phase 0: the first grid coordinate is 0. -/
abbrev cond0_0 (i : grid0.Coords) : Prop := k0_cond1 i = 1#1
/-- Phase 0 is the points before point 25. -/
theorem hcond0_0 : ∀ t : Fin cfg0.N, cond0_0 (grid0.coords t) ↔ t.val < 25 :=
  (by decide +kernel : ∀ t : Fin grid0.N, cond0_0 (grid0.coords t) ↔ t.val < 25)

/-- Phase 1: the first grid coordinate is 1. -/
abbrev cond0_1 (i : grid0.Coords) : Prop := k0_cond2 i = 1#1
/-- Phase 1 is the points from point 25 on. -/
theorem hcond0_1 : ∀ t : Fin cfg0.N, cond0_1 (grid0.coords t) ↔ 25 ≤ t.val :=
  (by decide +kernel : ∀ t : Fin grid0.N, cond0_1 (grid0.coords t) ↔ 25 ≤ t.val)

/-- In phase 0 the scratch slice stored is rows `[400 t, 400 t + 400)`, every column. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Through phase 0 the first result window is idle and is not written back. -/
theorem idleAt0_6_A : ∀ t : Fin cfg0.N, t.val < 25 → cfg0.idle 6 (grid0.coords t) = true := by decide +kernel
theorem noFlush0_6_A : ∀ t : Fin cfg0.N, t.val < 25 → (cfg0.win 6).flush t = false := by decide +kernel
/-- In phase 1 it is live. -/
theorem liveAt0_6_B : ∀ t : Fin cfg0.N, 25 ≤ t.val → cfg0.idle 6 (grid0.coords t) = false := by decide +kernel
/-- The same for the second result window. -/
theorem idleAt0_7_A : ∀ t : Fin cfg0.N, t.val < 25 → cfg0.idle 7 (grid0.coords t) = true := by decide +kernel
theorem noFlush0_7_A : ∀ t : Fin cfg0.N, t.val < 25 → (cfg0.win 7).flush t = false := by decide +kernel
theorem liveAt0_7_B : ∀ t : Fin cfg0.N, 25 ≤ t.val → cfg0.idle 7 (grid0.coords t) = false := by decide +kernel

/-! ## The memrefs the body is called with -/

abbrev ms0_0 (t : Fin cfg0.N) : Memref sig .tc .vmem S400x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S400x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S400x64 .f32 := win0_7.stage (cfg0.slots t 7)
abbrev hs0_7 (t : Fin cfg0.N) : (ms0_7 t).IsWhole := hstage0_7 ((cfg0.slots t 7).cast nbuf0_7)
/-- The scratch: a whole scoped buffer of the kernel's own. -/
abbrev scM0_0 : Memref sig .tc .vmem S10000x128 .bf16 := Memref.whole cc0_scratch0

/-- The class invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KernelIdealRunA.lean ====
/-
  Phase 0 of the kernel body, on whole staging memrefs: from the adjacency row block and the four small operands it
  computes one 400 × 128 block of the projected hidden layer and stores it into rows `[o, o + 400)` of the scratch;
  every other row of the scratch, the six inputs and the two result buffers are left as they were found.
-/
import proofs.«176933_g20486994002744_cont_8to1_9_11_alg».proof.Proof.KernelIdealSetup
import Idealize.ShloMosaic.Lib.WritesUnit
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- `S'` is `xs` with the block `p` written over rows `[o, o + 400)`: outside those rows it is `xs`, and row
    `o + r`, column `j` holds `p` at `(r, j)`. -/
def StoredRows (o : ℕ) (p : Vec F S400x128 .bf16) (xs S' : Vec F S10000x128 .bf16) : Prop :=
  (∀ y : S10000x128.Idx, ((y (0 : Fin 2)).val < o ∨ o + 400 ≤ (y (0 : Fin 2)).val) → S' y = xs y) ∧
  (∀ (y : S10000x128.Idx) (x : S400x128.Idx), (y (0 : Fin 2)).val = o + (x (0 : Fin 2)).val → (y (1 : Fin 2)).val = (x (1 : Fin 2)).val → S' y = p x)

private theorem hz2 : (![0, 0] : Fin 2 → ℕ) = fun _ => 0 := by funext a; fin_cases a <;> rfl

set_option maxHeartbeats 1000000 in
/-- The body's triple in phase 0. The scratch slice's row offset `o` is given by its closed form `ho`. -/
theorem runA (c : Dev nD) (i : grid0.Coords) (arg2 : Memref sig .tc .vmem S400x10000 .f32) (harg2 : arg2.IsWhole) (arg3 : Memref sig .tc .vmem S10000x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S400x64 .f32) (harg8 : arg8.IsWhole) (arg9 : Memref sig .tc .vmem S400x64 .f32) (harg9 : arg9.IsWhole) (arg10 : Memref sig .tc .vmem S10000x128 .bf16) (harg10 : arg10.IsWhole) (hc0 : cond0_0 i) (hc1 : ¬cond0_1 i)
    (o : ℕ) (ho : k0_off1 i = ![o, 0])
    (x0 : Vec F S400x10000 .f32) (x1 : Vec F S10000x128 .bf16) (x2 : Vec F S128x128 .bf16) (x3 : Vec F S1x128 .f32) (x4 : Vec F S128x128 .bf16) (x5 : Vec F S1x128 .f32) (xi6 xi7 : Vec F S400x64 .f32) (xs : Vec F S10000x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ S', owns (c : Thread nD τ) arg10 fullShare S' ∗ ⌜StoredRows o (k0_pay2 x0 x1 x2 x3 x4) xs S'⌝)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _
    isplitl [HS0]
    · iexists _; isplitr; swap; · iexact HS0
      ipureintro; rfl
    ipureintro
    simp only [View.readAt_eq_ld, harg2.read_unread, harg3.read_unread, harg4.read_unread, harg5.read_unread, harg6.read_unread,
      View.ld_unit_zero (S := S400x10000) hz2, View.ld_unit_zero (S := S10000x128) hz2, View.ld_unit_zero (S := S128x128) hz2,
      View.ld_unit_zero (S := S1x128) hz2]
    refine ⟨fun y hy => ?_, fun y x h0 h1 => ?_⟩
    · rw [View.read_writes_cons_rows_of_not_mem arg10.view _ _ _ [] y ho rfl hy, View.writes_nil, harg10.read_unread]
    · exact View.read_writes_cons_rows_of_mem arg10.view _ _ _ [] y x ho h0 h1

end Cert.KernelIdeal.Hand

end
-- ==== Proof.KernelIdealData.lean ====
/-
  What the scratch holds between grid points, and the proof data of the pipeline.

  The projected hidden layer `HP` is one 10000 × 128 array: row `r` is row `r % 400` of the block that the phase-0
  point `r / 400` computes from its adjacency row block and the four small operands. Before point `n` the scratch
  agrees with `HP` on its first `400 n` rows (nothing is known of the others: the scratch starts at anything); from
  point 25 on that is the whole of it. In phase 1 each result block is the body's function of the adjacency row block,
  `HP` and the joined bias row.
-/
import proofs.«176933_g20486994002744_cont_8to1_9_11_alg».proof.Proof.KernelIdealRunA
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The block of the projected hidden layer computed at point `t` (stored there when `t` is in phase 0). -/
def hpBlk (c : Dev nD) (t : Fin cfg0.N) : Vec F S400x128 .bf16 :=
  k0_pay2 (iblk m c 0 t) (iblk m c 1 t) (iblk m c 2 t) (iblk m c 3 t) (iblk m c 4 t)

/-- The phase-0 point whose block holds row `r`. -/
def rowPt (r : ℕ) (hr : r < 10000) : Fin cfg0.N := ⟨r / 400, by have : cfg0.N = 50 := N_0; omega⟩

/-- The projected hidden layer, all rows. -/
def HP (c : Dev nD) : Vec F S10000x128 .bf16 := fun y =>
  hpBlk m c (rowPt (y (0 : Fin 2)).val (idx2_lt0 y))
    (ix2 (⟨(y (0 : Fin 2)).val % 400, Nat.mod_lt _ (by norm_num)⟩ : Fin 400) (⟨(y (1 : Fin 2)).val, idx2_lt1 y⟩ : Fin 128))

/-- The scratch contents `S` agree with the projected hidden layer on the first `400 n` rows. -/
def ScInv (c : Dev nD) (n : ℕ) (S : Vec F S10000x128 .bf16) : Prop :=
  ∀ y : S10000x128.Idx, (y (0 : Fin 2)).val < 400 * n → S y = HP m c y

theorem scInv_zero (c : Dev nD) (S : Vec F S10000x128 .bf16) : ScInv m c 0 S := fun y h => absurd h (by omega)

/-- From point 25 on the rows are all of them. -/
theorem scInv_full (c : Dev nD) (n : ℕ) (hn : 25 ≤ n) (S : Vec F S10000x128 .bf16) (h : ScInv m c n S) : S = HP m c :=
  funext fun y => h y (by have := idx2_lt0 y; omega)

theorem scInv_self (c : Dev nD) (n : ℕ) : ScInv m c n (HP m c) := fun _ _ => rfl

/-- Storing point `t`'s block into rows `[400 t, 400 t + 400)` extends the agreement by those rows. -/
theorem scInv_step (c : Dev nD) (t : Fin cfg0.N) (ht : t.val < 25) (S S' : Vec F S10000x128 .bf16)
    (h : ScInv m c t.val S) (hs : StoredRows (400 * t.val) (hpBlk m c t) S S') : ScInv m c (t.val + 1) S' := by
  intro y hy
  by_cases h1 : (y (0 : Fin 2)).val < 400 * t.val
  · rw [hs.1 y (Or.inl h1)]; exact h y h1
  · have hlt : (y (0 : Fin 2)).val < 10000 := idx2_lt0 y
    rw [hs.2 y (ix2 (⟨(y (0 : Fin 2)).val - 400 * t.val, by omega⟩ : Fin 400) (⟨(y (1 : Fin 2)).val, idx2_lt1 y⟩ : Fin 128))
      (by show (y (0 : Fin 2)).val = 400 * t.val + ((y (0 : Fin 2)).val - 400 * t.val); omega) rfl]
    unfold HP
    have e1 : rowPt (y (0 : Fin 2)).val (idx2_lt0 y) = t := Fin.ext (by show (y (0 : Fin 2)).val / 400 = t.val; omega)
    rw [e1]
    congr 1
    funext a
    match a with
    | ⟨0, _⟩ => exact Fin.ext (by show (y (0 : Fin 2)).val - 400 * t.val = (y (0 : Fin 2)).val % 400; omega)
    | ⟨1, _⟩ => rfl

/-- The region invariant before point `n`: the scratch at contents that agree with the projected hidden layer on the
    first `400 n` rows, and the generator register at some state. -/
def PhiS (c : Dev nD) (n : ℕ) : sProp 𝕄 :=
  iprop((∃ S, owns (c : Thread nD τ) scM0_0 fullShare S ∗ ⌜ScInv m c n S⌝) ∗ (∃ r, prngReg c r))

/-- The proof data of the pipeline on core `c`: the arrays as the region finds them; after the body each input's
    buffer at its block, each result's buffer at the phase-1 function of the adjacency row block, the projected hidden
    layer and the joined bias row (in phase 0 the result windows are idle and this is not consulted); the invariant
    `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay4 (iblk m c 0 t) (HP m c) (iblk m c 5 t)
    | ⟨7, _⟩ => k0_pay5 (iblk m c 0 t) (HP m c) (iblk m c 5 t)
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = k0_pay4 (iblk m c 0 t) (HP m c) (iblk m c 5 t) := by dsimp only [dats]
theorem after0_7 (c : Dev nD) (t : Fin cfg0.N) : (dats m 0 c).after 7 t = k0_pay5 (iblk m c 0 t) (HP m c) (iblk m c 5 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

end Cert.KernelIdeal.Hand

end
-- ==== Proof.KernelIdealRunB.lean ====
/-
  Phase 1 of the kernel body, on whole staging memrefs: from the adjacency row block, the whole scratch (the projected
  hidden layer) and the joined bias row it computes one 400 × 64 block of each result and stores each whole into its
  result buffer, whatever the buffers held; the six inputs and the scratch are left as they were found.
-/
import proofs.«176933_g20486994002744_cont_8to1_9_11_alg».proof.Proof.KernelIdealSetup
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

private theorem hz2 : (![0, 0] : Fin 2 → ℕ) = fun _ => 0 := by funext a; fin_cases a <;> rfl

set_option maxHeartbeats 1000000 in
/-- The body's triple in phase 1. -/
theorem runB (c : Dev nD) (i : grid0.Coords) (arg2 : Memref sig .tc .vmem S400x10000 .f32) (harg2 : arg2.IsWhole) (arg3 : Memref sig .tc .vmem S10000x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S400x64 .f32) (harg8 : arg8.IsWhole) (arg9 : Memref sig .tc .vmem S400x64 .f32) (harg9 : arg9.IsWhole) (arg10 : Memref sig .tc .vmem S10000x128 .bf16) (harg10 : arg10.IsWhole) (hc0 : ¬cond0_0 i) (hc1 : cond0_1 i)
    (x0 : Vec F S400x10000 .f32) (x1 : Vec F S10000x128 .bf16) (x2 : Vec F S128x128 .bf16) (x3 : Vec F S1x128 .f32) (x4 : Vec F S128x128 .bf16) (x5 : Vec F S1x128 .f32) (xs : Vec F S10000x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 x0 xs x5) ∗ owns (c : Thread nD τ) arg9 fullShare (k0_pay5 x0 xs x5) ∗ owns (c : Thread nD τ) arg10 fullShare xs) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, %hf6, H6⟩, ⟨%d7, %f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [View.read_writes_eq_canon _ _ _ (fun y => ⟨_, List.mem_singleton_self _, View.mem_set_unit_zero hz2 Facts₀.inb_S400x64_S400x64_0_0 y⟩),
        View.canon_unit_zero hz2]
      simp only [View.readAt_eq_ld, harg2.read_unread, harg7.read_unread, harg10.read_unread,
        View.ld_unit_zero (S := S400x10000) hz2, View.ld_unit_zero (S := S10000x128) hz2, View.ld_unit_zero (S := S1x128) hz2]
    isplitl [H7]
    · iexists _; isplitr; swap; · iexact H7
      ipureintro
      rw [View.read_writes_eq_canon _ _ _ (fun y => ⟨_, List.mem_singleton_self _, View.mem_set_unit_zero hz2 Facts₀.inb_S400x64_S400x64_0_0 y⟩),
        View.canon_unit_zero hz2]
      simp only [View.readAt_eq_ld, harg2.read_unread, harg7.read_unread, harg10.read_unread,
        View.ld_unit_zero (S := S400x10000) hz2, View.ld_unit_zero (S := S10000x128) hz2, View.ld_unit_zero (S := S1x128) hz2]
    iexists _; isplitr; · ipureintro; exact harg10.read_unread _
    iexact HS0

end Cert.KernelIdeal.Hand

end
-- ==== Proof.KernelIdealBody.lean ====
/-
  The body obligation of the pipeline, the run of the whole program, and the frame.

  At a phase-0 point the scratch is handed to the body at contents that agree with the projected hidden layer on the
  rows already stored, and comes back agreeing on 400 rows more; the two result buffers, idle there, go through
  untouched. At a phase-1 point the scratch holds the whole projected hidden layer, is only read, and each result
  buffer comes back at its block. Before the first point the invariant asks nothing of the scratch, and after the
  last it is forgotten.
-/
import proofs.«176933_g20486994002744_cont_8to1_9_11_alg».proof.Proof.KernelIdealData
import proofs.«176933_g20486994002744_cont_8to1_9_11_alg».proof.Proof.KernelIdealRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem Phi_castSucc (c : Dev nD) (t : Fin cfg0.N) : (dats m 0 c).Φ t.castSucc = PhiS m c t.val := by
  dsimp only [dats]; simp only [Fin.coe_castSucc]

theorem Phi_succ (c : Dev nD) (t : Fin cfg0.N) : (dats m 0 c).Φ t.succ = PhiS m c (t.val + 1) := by
  dsimp only [dats]; simp only [Fin.val_succ]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [Phi_castSucc, Phi_succ]
  unfold PhiS
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases h0 : t.val < 25
  · have h1 : ¬ 25 ≤ t.val := by omega
    rw [Dat.leavesExact_idle (dats m 0 c) 6 t (idleAt0_6_A t h0) (noFlush0_6_A t h0)]
    rw [Dat.leavesExact_idle (dats m 0 c) 7 t (idleAt0_7_A t h0) (noFlush0_7_A t h0)]
    iintro ⟨⟨⟨%S, HS0, %hS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c (grid0.coords t) _ _ _ _ _ _ _ _ _ _ _ _ _ _ _ _ _ _ ((hcond0_0 t).mpr h0) (fun h => h1 ((hcond0_1 t).mp h)) (400 * t.val) (off1_eq t h0) (iblk m c 0 t) (iblk m c 1 t) (iblk m c 2 t) (iblk m c 3 t) (iblk m c 4 t) (iblk m c 5 t) _ _ S) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iintro ⟨H0, H1, H2, H3, H4, H5, H6, H7, ⟨%S', HS0, %hS'⟩⟩
    isplitl [HS0 Hg]
    · isplitl [HS0]
      · iexists S'
        isplitl [HS0]; · iexact HS0
        ipureintro; exact scInv_step m c t h0 S S' hS hS'
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · have h1 : 25 ≤ t.val := by omega
    rw [show (dats m 0 c).leavesExact 6 t = owns (c : Thread nD τ) (ms0_6 t) fullShare ((dats m 0 c).after 6 t) from by
        unfold Dat.leavesExact; rw [liveAt0_6_B t h1], after0_6]
    rw [show (dats m 0 c).leavesExact 7 t = owns (c : Thread nD τ) (ms0_7 t) fullShare ((dats m 0 c).after 7 t) from by
        unfold Dat.leavesExact; rw [liveAt0_7_B t h1], after0_7]
    iintro ⟨⟨⟨%S, HS0, %hS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain rfl := scInv_full m c t.val h1 S hS
    iapply ((runB c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (HP m c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]
      · iexists _
        isplitl [HS0]; · iexact HS0
        ipureintro; exact scInv_self m c _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is asked of the scratch. -/
theorem hin (c : Dev nD) : Pipeline.ΦA spec0 c ⊢ (dats m 0 c).Φ 0 := by
  rw [show (dats m 0 c).Φ 0 = PhiS m c 0 from rfl, PhiA0_eq]
  unfold PhiS
  iintro ⟨⟨%d, HS0⟩, Hg⟩
  isplitl [HS0]
  · iexists d
    isplitl [HS0]; · iexact HS0
    ipureintro; exact scInv_zero m c d
  iexact Hg

/-- After the last point the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨%S, HS0, -⟩, Hg⟩
  isplitl [HS0]
  · iexists S; iexact HS0
  iexact Hg

set_option backward.isDefEq.respectTransparency.types false in
/-- Every weakly fair execution of the program terminates, with every array of the pipeline at what the library
    computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its eight argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Hand

end
-- ==== Proof.FinalArrays.lean ====
/-
  The two result arrays after the run. Each is written back block by block in phase 1 only: point `25 + q` writes rows
  `[400 q, 400 q + 400)`, and these 25 blocks tile the array. So row `r` of each result is row `r % 400` of what the
  body left at point `25 + r / 400`: its function of that point's adjacency row block, the projected hidden layer and
  the joined bias row.
-/
import proofs.«176933_g20486994002744_cont_8to1_9_11_alg».proof.Proof.KernelIdealData
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The phase-1 point that computes row `r` of the results. -/
def outPt (r : ℕ) (hr : r < 10000) : Fin cfg0.N := ⟨25 + r / 400, by have : cfg0.N = 50 := N_0; omega⟩

/-- The first result, all rows. -/
def muOut (c : Dev nD) : Vec F S10000x64 .f32 := fun y =>
  k0_pay4 (iblk m c 0 (outPt (y (0 : Fin 2)).val (idx2_lt0 y))) (HP m c) (iblk m c 5 (outPt (y (0 : Fin 2)).val (idx2_lt0 y)))
    (ix2 (⟨(y (0 : Fin 2)).val % 400, Nat.mod_lt _ (by norm_num)⟩ : Fin 400) (⟨(y (1 : Fin 2)).val, idx2_lt1 y⟩ : Fin 64))

/-- The second result, all rows. -/
def sigOut (c : Dev nD) : Vec F S10000x64 .f32 := fun y =>
  k0_pay5 (iblk m c 0 (outPt (y (0 : Fin 2)).val (idx2_lt0 y))) (HP m c) (iblk m c 5 (outPt (y (0 : Fin 2)).val (idx2_lt0 y)))
    (ix2 (⟨(y (0 : Fin 2)).val % 400, Nat.mod_lt _ (by norm_num)⟩ : Fin 400) (⟨(y (1 : Fin 2)).val, idx2_lt1 y⟩ : Fin 64))

/-! ## The grid facts of the two result windows, decided once over the 50 points -/

/-- The first result window is written back exactly at the phase-1 points. -/
theorem flush0_6_iff : ∀ t : Fin cfg0.N, (cfg0.win 6).flush t = true ↔ 25 ≤ t.val :=
  (by decide +kernel : ∀ t : Fin grid0.N, win0_6.flush t = true ↔ 25 ≤ t.val)

/-- In phase 1 its block index is `(t - 25, 0)`. -/
theorem idx0_6 : ∀ t : Fin cfg0.N, 25 ≤ t.val →
    win0_6.index t (0 : Fin 2) = t.val - 25 ∧ win0_6.index t (1 : Fin 2) = 0 :=
  (by decide +kernel : ∀ t : Fin grid0.N, 25 ≤ t.val →
    win0_6.index t (0 : Fin 2) = t.val - 25 ∧ win0_6.index t (1 : Fin 2) = 0)

/-- The second result window is written back exactly at the phase-1 points. -/
theorem flush0_7_iff : ∀ t : Fin cfg0.N, (cfg0.win 7).flush t = true ↔ 25 ≤ t.val :=
  (by decide +kernel : ∀ t : Fin grid0.N, win0_7.flush t = true ↔ 25 ≤ t.val)

/-- In phase 1 its block index is `(t - 25, 0)`. -/
theorem idx0_7 : ∀ t : Fin cfg0.N, 25 ≤ t.val →
    win0_7.index t (0 : Fin 2) = t.val - 25 ∧ win0_7.index t (1 : Fin 2) = 0 :=
  (by decide +kernel : ∀ t : Fin grid0.N, 25 ≤ t.val →
    win0_7.index t (0 : Fin 2) = t.val - 25 ∧ win0_7.index t (1 : Fin 2) = 0)

/-! ## The whole-array functions at a row of a phase-1 block -/

/-- Row `400 (t - 25) + j 0` of the first result is row `j 0` of what the phase-1 point `t` computes. -/
theorem muOut_at (c : Dev nD) (t : Fin cfg0.N) (ht : 25 ≤ t.val) (y : S10000x64.Idx) (j : S400x64.Idx)
    (h0 : (y (0 : Fin 2)).val = (t.val - 25) * 400 + (j (0 : Fin 2)).val)
    (h1 : (y (1 : Fin 2)).val = (j (1 : Fin 2)).val) :
    muOut m c y = k0_pay4 (iblk m c 0 t) (HP m c) (iblk m c 5 t) j := by
  have hj0 : (j (0 : Fin 2)).val < 400 := idx2_lt0 j
  have e : outPt (y (0 : Fin 2)).val (idx2_lt0 y) = t :=
    Fin.ext (by show 25 + (y (0 : Fin 2)).val / 400 = t.val; omega)
  unfold muOut
  rw [e]
  congr 1
  funext a
  match a with
  | ⟨0, _⟩ => exact Fin.ext (by show (y (0 : Fin 2)).val % 400 = (j (0 : Fin 2)).val; omega)
  | ⟨1, _⟩ => exact Fin.ext (by show (y (1 : Fin 2)).val = (j (1 : Fin 2)).val; omega)

/-- Row `400 (t - 25) + j 0` of the second result is row `j 0` of what the phase-1 point `t` computes. -/
theorem sigOut_at (c : Dev nD) (t : Fin cfg0.N) (ht : 25 ≤ t.val) (y : S10000x64.Idx) (j : S400x64.Idx)
    (h0 : (y (0 : Fin 2)).val = (t.val - 25) * 400 + (j (0 : Fin 2)).val)
    (h1 : (y (1 : Fin 2)).val = (j (1 : Fin 2)).val) :
    sigOut m c y = k0_pay5 (iblk m c 0 t) (HP m c) (iblk m c 5 t) j := by
  have hj0 : (j (0 : Fin 2)).val < 400 := idx2_lt0 j
  have e : outPt (y (0 : Fin 2)).val (idx2_lt0 y) = t :=
    Fin.ext (by show 25 + (y (0 : Fin 2)).val / 400 = t.val; omega)
  unfold sigOut
  rw [e]
  congr 1
  funext a
  match a with
  | ⟨0, _⟩ => exact Fin.ext (by show (y (0 : Fin 2)).val % 400 = (j (0 : Fin 2)).val; omega)
  | ⟨1, _⟩ => exact Fin.ext (by show (y (1 : Fin 2)).val = (j (1 : Fin 2)).val; omega)

/-! ## The first result window -/

/-- What a phase-1 point writes back is its block of `muOut`: the block lies whole inside the array, so the part
    moved is all of what the body left, and the block's element `x` sits at row `400 (t - 25) + x 0`, column `x 1`. -/
theorem flushed6_eq (c : Dev nD) (t : Fin cfg0.N) (hf : (cfg0.win 6).flush t = true) :
    (dats m 0 c).flushed 6 t = ((cfg0.win 6).blk t).view.read (Elt F) (muOut m c) := by
  have ht : 25 ≤ t.val := (flush0_6_iff t).mp hf
  obtain ⟨e0, e1⟩ := idx0_6 t ht
  show (cfg0.win 6).cut (grid0.coords t) ((dats m 0 c).after 6 t) = _
  rw [after0_6]
  funext x
  rw [View.read_apply]
  refine (muOut_at m c t ht (((cfg0.win 6).blk t).view.emb x) ((cfg0.win 6).xinj (grid0.coords t) x) ?_ ?_).symm
  · show win0_6.index t (0 : Fin 2) * 400 + 1 * (x (0 : Fin 2)).val = (t.val - 25) * 400 + (x (0 : Fin 2)).val
    rw [e0]; omega
  · show win0_6.index t (1 : Fin 2) * 64 + 1 * (x (1 : Fin 2)).val = (x (1 : Fin 2)).val
    rw [e1]; omega

/-- An index of the array is in point `t`'s block iff each coordinate is in the block's range on its axis. -/
theorem mem_blk6 (t : Fin cfg0.N) (i : S10000x64.Idx) :
    i ∈ ((cfg0.win 6).blk t).view.set ↔ ∀ a : Fin 2, win0_6.index t a * S400x64.size a ≤ (i a).val ∧ (i a).val < win0_6.index t a * S400x64.size a + S400x64.size a := by
  show i ∈ ((View.whole main_v7_0).slice (win0_6.rect t)).set ↔ _
  rw [View.set_slice_whole, Rect.mem_set_unit]
  exact Iff.rfl

/-- Row `r` lies in the block of the phase-1 point `25 + r / 400`: the 25 blocks tile the rows. -/
theorem cover6 (i : S10000x64.Idx) :
    ∃ t : Fin cfg0.N, (cfg0.win 6).flush t = true ∧ i ∈ ((cfg0.win 6).blk t).view.set := by
  have hi0 : (i (0 : Fin 2)).val < 10000 := idx2_lt0 i
  have hi1 : (i (1 : Fin 2)).val < 64 := idx2_lt1 i
  have hv : (outPt (i (0 : Fin 2)).val hi0).val = 25 + (i (0 : Fin 2)).val / 400 := rfl
  have ht : 25 ≤ (outPt (i (0 : Fin 2)).val hi0).val := by omega
  obtain ⟨e0, e1⟩ := idx0_6 (outPt (i (0 : Fin 2)).val hi0) ht
  refine ⟨outPt (i (0 : Fin 2)).val hi0, (flush0_6_iff _).mpr ht, ?_⟩
  rw [mem_blk6]
  intro a
  match a with
  | ⟨0, _⟩ =>
    show win0_6.index (outPt (i (0 : Fin 2)).val hi0) (0 : Fin 2) * 400 ≤ (i (0 : Fin 2)).val ∧ (i (0 : Fin 2)).val < win0_6.index (outPt (i (0 : Fin 2)).val hi0) (0 : Fin 2) * 400 + 400
    rw [e0, hv]; omega
  | ⟨1, _⟩ =>
    show win0_6.index (outPt (i (0 : Fin 2)).val hi0) (1 : Fin 2) * 64 ≤ (i (1 : Fin 2)).val ∧ (i (1 : Fin 2)).val < win0_6.index (outPt (i (0 : Fin 2)).val hi0) (1 : Fin 2) * 64 + 64
    rw [e1]; omega

/-- After the write-backs the first result array holds `muOut`. -/
theorem final6 (c : Dev nD) : (dats m 0 c).arrAt 6 cfg0.N = muOut m c :=
  (dats m 0 c).arrAt_eq_of_cover 6 (muOut m c) (flushed6_eq m c) cover6

/-! ## The second result window -/

/-- What a phase-1 point writes back is its block of `sigOut`: the block lies whole inside the array, so the part
    moved is all of what the body left, and the block's element `x` sits at row `400 (t - 25) + x 0`, column `x 1`. -/
theorem flushed7_eq (c : Dev nD) (t : Fin cfg0.N) (hf : (cfg0.win 7).flush t = true) :
    (dats m 0 c).flushed 7 t = ((cfg0.win 7).blk t).view.read (Elt F) (sigOut m c) := by
  have ht : 25 ≤ t.val := (flush0_7_iff t).mp hf
  obtain ⟨e0, e1⟩ := idx0_7 t ht
  show (cfg0.win 7).cut (grid0.coords t) ((dats m 0 c).after 7 t) = _
  rw [after0_7]
  funext x
  rw [View.read_apply]
  refine (sigOut_at m c t ht (((cfg0.win 7).blk t).view.emb x) ((cfg0.win 7).xinj (grid0.coords t) x) ?_ ?_).symm
  · show win0_7.index t (0 : Fin 2) * 400 + 1 * (x (0 : Fin 2)).val = (t.val - 25) * 400 + (x (0 : Fin 2)).val
    rw [e0]; omega
  · show win0_7.index t (1 : Fin 2) * 64 + 1 * (x (1 : Fin 2)).val = (x (1 : Fin 2)).val
    rw [e1]; omega

/-- An index of the array is in point `t`'s block iff each coordinate is in the block's range on its axis. -/
theorem mem_blk7 (t : Fin cfg0.N) (i : S10000x64.Idx) :
    i ∈ ((cfg0.win 7).blk t).view.set ↔ ∀ a : Fin 2, win0_7.index t a * S400x64.size a ≤ (i a).val ∧ (i a).val < win0_7.index t a * S400x64.size a + S400x64.size a := by
  show i ∈ ((View.whole main_v7_1).slice (win0_7.rect t)).set ↔ _
  rw [View.set_slice_whole, Rect.mem_set_unit]
  exact Iff.rfl

/-- Row `r` lies in the block of the phase-1 point `25 + r / 400`: the 25 blocks tile the rows. -/
theorem cover7 (i : S10000x64.Idx) :
    ∃ t : Fin cfg0.N, (cfg0.win 7).flush t = true ∧ i ∈ ((cfg0.win 7).blk t).view.set := by
  have hi0 : (i (0 : Fin 2)).val < 10000 := idx2_lt0 i
  have hi1 : (i (1 : Fin 2)).val < 64 := idx2_lt1 i
  have hv : (outPt (i (0 : Fin 2)).val hi0).val = 25 + (i (0 : Fin 2)).val / 400 := rfl
  have ht : 25 ≤ (outPt (i (0 : Fin 2)).val hi0).val := by omega
  obtain ⟨e0, e1⟩ := idx0_7 (outPt (i (0 : Fin 2)).val hi0) ht
  refine ⟨outPt (i (0 : Fin 2)).val hi0, (flush0_7_iff _).mpr ht, ?_⟩
  rw [mem_blk7]
  intro a
  match a with
  | ⟨0, _⟩ =>
    show win0_7.index (outPt (i (0 : Fin 2)).val hi0) (0 : Fin 2) * 400 ≤ (i (0 : Fin 2)).val ∧ (i (0 : Fin 2)).val < win0_7.index (outPt (i (0 : Fin 2)).val hi0) (0 : Fin 2) * 400 + 400
    rw [e0, hv]; omega
  | ⟨1, _⟩ =>
    show win0_7.index (outPt (i (0 : Fin 2)).val hi0) (1 : Fin 2) * 64 ≤ (i (1 : Fin 2)).val ∧ (i (1 : Fin 2)).val < win0_7.index (outPt (i (0 : Fin 2)).val hi0) (1 : Fin 2) * 64 + 64
    rw [e1]; omega

/-- After the write-backs the second result array holds `sigOut`. -/
theorem final7 (c : Dev nD) : (dats m 0 c).arrAt 7 cfg0.N = sigOut m c :=
  (dats m 0 c).arrAt_eq_of_cover 7 (sigOut m c) (flushed7_eq m c) cover7

end Cert.KernelIdeal.Hand

end
-- ==== Proof.NamedRun.lean ====
/-
  The run of the idealized kernel with both results named: every weakly fair execution terminates with the first result
  array at `muOut`, the second at `sigOut`, and the eight argument arrays unchanged. The results are read off the run's
  post at the two result windows (the library's final contents, which `final6` / `final7` identify); the adjacency
  matrix, a staged input, ends at its entry contents, and the seven arguments no window stages bypass the region.
-/
import proofs.«176933_g20486994002744_cont_8to1_9_11_alg».proof.Proof.KernelIdealBody
import proofs.«176933_g20486994002744_cont_8to1_9_11_alg».proof.Proof.FinalArrays

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_named : θ_run defs (onTc (τ := τ) (main (F := F))) ⟨m, fun _ => 0, ρ⟩ (fun r => ∀ c : Dev nD,
      r.2.mem ((c.tc : Thread nD τ).loc main_v7_0) = muOut m c
      ∧ r.2.mem ((c.tc : Thread nD τ).loc main_v7_1) = sigOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 6).trans (final6 m c), ((h c).1 7).trans (final7 m c),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) (run_main m ρ)

end Cert.KernelIdeal.Hand

end
-- ==== Proof.Payload.lean ====
/-
  The three stored values of the kernel body read at one entry, over the extended reals, where a change of float
  format is the identity and a matrix product into a zero accumulator is the sum over its contracted axis.

  The scratch block is `max ((A X) W₁ + b₁) 0 · W_c`: at row `r`, column `j` the sum over `k` of the hidden entry
  `(r, k)` times `W_c (k, j)`. The first result block is `A · HP + b_c` cut to its first 64 columns, the second the
  exponential of its last 64 columns.
-/
import proofs.«176933_g20486994002744_cont_8to1_9_11_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## A matrix product into the zero accumulator, read at one entry

For each of the two product shapes: the left operand's index at output entry `(r, q)` and contraction index `n` is
`(r, n)`, the right operand's is `(n, q)` (one lemma per operand axis), so the entry is `∑ n, a (r, n) * b (n, q)`. -/

theorem lhs_big_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_big_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_big_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_big_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The 400×10000 by 10000×128 product into zero at `(r, q)`. -/
theorem mm_big (a : FVec Ideal S400x10000 .bf16) (b : FVec Ideal S10000x128 .bf16) (r : Fin 400) (q : Fin 128) :
    matmul dot_S400x10000_S10000x128_S400x128_1_0_0_1_n_n none a b (constant (F := Ideal) S400x128 .f32 0x00000000#32) (ix2 r q)
      = ∑ n : Fin 10000, a (ix2 r n) * b (ix2 n q) := by
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 r q) ((contrEquiv1 dot_S400x10000_S10000x128_S400x128_1_0_0_1_n_n 10000 rfl rfl).symm k) = ix2 r k := funext fun c => Fin.ext (by
    match c with
    | ⟨0, _⟩ => exact lhs_big_0 _ _
    | ⟨1, _⟩ => exact (lhs_big_1 _ _).trans hk)
  have er : dot_S400x10000_S10000x128_S400x128_1_0_0_1_n_n.rhsIdx (ix2 r q) ((contrEquiv1 dot_S400x10000_S10000x128_S400x128_1_0_0_1_n_n 10000 rfl rfl).symm k) = ix2 k q := funext fun c => Fin.ext (by
    match c with
    | ⟨0, _⟩ => exact (rhs_big_0 _ _).trans hk
    | ⟨1, _⟩ => exact rhs_big_1 _ _)
  rw [el, er]

theorem lhs_small_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhs_small_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhs_small_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhs_small_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- The 400×128 by 128×128 product into zero at `(r, q)`. -/
theorem mm_small (a : FVec Ideal S400x128 .bf16) (b : FVec Ideal S128x128 .bf16) (r : Fin 400) (q : Fin 128) :
    matmul dot_S400x128_S128x128_S400x128_1_0_0_1_n_n none a b (constant (F := Ideal) S400x128 .f32 0x00000000#32) (ix2 r q)
      = ∑ n : Fin 128, a (ix2 r n) * b (ix2 n q) := by
  simp only [matmul]
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 r q) ((contrEquiv1 dot_S400x128_S128x128_S400x128_1_0_0_1_n_n 128 rfl rfl).symm k) = ix2 r k := funext fun c => Fin.ext (by
    match c with
    | ⟨0, _⟩ => exact lhs_small_0 _ _
    | ⟨1, _⟩ => exact (lhs_small_1 _ _).trans hk)
  have er : dot_S400x128_S128x128_S400x128_1_0_0_1_n_n.rhsIdx (ix2 r q) ((contrEquiv1 dot_S400x128_S128x128_S400x128_1_0_0_1_n_n 128 rfl rfl).symm k) = ix2 k q := funext fun c => Fin.ext (by
    match c with
    | ⟨0, _⟩ => exact (rhs_small_0 _ _).trans hk
    | ⟨1, _⟩ => exact rhs_small_1 _ _)
  rw [el, er]

/-! ## The layout operations of the body, read at one entry -/

/-- The one-row bias broadcast down the 400 rows reads its column. -/
theorem bias_apply (x : Vec Ideal S1x128 .f32) (r : Fin 400) (k : Fin 128) :
    broadcastTo S400x128 x broadcasts_S1x128_S400x128 (ix2 r k) = x (ix2 (0 : Fin 1) k) :=
  broadcastTo_apply x broadcasts_S1x128_S400x128 (ix2 r k) (ix2 (0 : Fin 1) k) fun a => by
    match a with
    | ⟨0, _⟩ => rfl
    | ⟨1, _⟩ => rfl

/-- The first 64 columns of a 400×128 block. -/
theorem slice_lo_apply (x : FVec Ideal S400x128 .f32) (r : Fin 400) (j : Fin 64) :
    extractStridedSlice S400x64 ![0, 0] x slices_S400x128_o0_0_S400x64 (ix2 r j) = x (ix2 r (⟨j.val, by omega⟩ : Fin 128)) :=
  extractStridedSlice_apply ![0, 0] x slices_S400x128_o0_0_S400x64 (ix2 r j) (ix2 r (⟨j.val, by omega⟩ : Fin 128)) fun a => by
    match a with
    | ⟨0, _⟩ => show r.val = 0 + r.val; omega
    | ⟨1, _⟩ => show j.val = 0 + j.val; omega

/-- The last 64 columns of a 400×128 block. -/
theorem slice_hi_apply (x : FVec Ideal S400x128 .f32) (r : Fin 400) (j : Fin 64) :
    extractStridedSlice S400x64 ![0, 64] x slices_S400x128_o0_64_S400x64 (ix2 r j) = x (ix2 r (⟨64 + j.val, by omega⟩ : Fin 128)) :=
  extractStridedSlice_apply ![0, 64] x slices_S400x128_o0_64_S400x64 (ix2 r j) (ix2 r (⟨64 + j.val, by omega⟩ : Fin 128)) fun a => by
    match a with
    | ⟨0, _⟩ => show r.val = 0 + r.val; omega
    | ⟨1, _⟩ => show 64 + j.val = 64 + j.val; rfl

/-! ## The stored values -/

/-- `A · HP + b_c` at row `r`, column `q`: the block both result slices are cut from. -/
theorem pay3_apply (x0 : Vec Ideal S400x10000 .f32) (hp : Vec Ideal S10000x128 .bf16) (x5 : Vec Ideal S1x128 .f32)
    (r : Fin 400) (q : Fin 128) :
    k0_pay3 (F := Ideal) x0 hp x5 (ix2 r q)
      = (∑ n : Fin 10000, x0 (ix2 r n) * hp (ix2 n q)) + x5 (ix2 (0 : Fin 1) q) := by
  unfold k0_pay3 k0_pay1
  simp only [shapeCast_self]
  rw [addf_apply, mm_big, bias_apply]
  rfl

/-- The stored scratch block at row `r`, column `j`. -/
theorem pay2_apply (x0 : Vec Ideal S400x10000 .f32) (x1 : Vec Ideal S10000x128 .bf16) (x2 : Vec Ideal S128x128 .bf16)
    (x3 : Vec Ideal S1x128 .f32) (x4 : Vec Ideal S128x128 .bf16) (r : Fin 400) (j : Fin 128) :
    k0_pay2 (F := Ideal) x0 x1 x2 x3 x4 (ix2 r j)
      = ∑ k : Fin 128, max ((∑ q : Fin 128, (∑ n : Fin 10000, x0 (ix2 r n) * x1 (ix2 n q)) * x2 (ix2 q k)) + x3 (ix2 (0 : Fin 1) k)) 0
          * x4 (ix2 k j) := by
  unfold k0_pay2 k0_pay1
  simp only [shapeCast_self]
  rw [truncf_apply, mm_small]
  refine Finset.sum_congr rfl fun k _ => ?_
  rw [truncf_apply, maximumf_apply, addf_apply, bias_apply, broadcast_apply, mm_small]
  have h0 : (FloatOps.ofBits (F := Ideal) .f32 0x00000000#32) = 0 := Ideal.ofBits_zero_f32
  rw [h0]
  refine congrArg (fun t => max (t + x3 (ix2 (0 : Fin 1) k)) 0 * x4 (ix2 k j)) ?_
  refine Finset.sum_congr rfl fun q _ => ?_
  rw [truncf_apply, mm_big]
  rfl

/-- The first result block at row `r`, column `j`: column `j` of `A · HP + b_c`. -/
theorem pay4_apply (x0 : Vec Ideal S400x10000 .f32) (hp : Vec Ideal S10000x128 .bf16) (x5 : Vec Ideal S1x128 .f32)
    (r : Fin 400) (j : Fin 64) :
    k0_pay4 (F := Ideal) x0 hp x5 (ix2 r j)
      = (∑ n : Fin 10000, x0 (ix2 r n) * hp (ix2 n (⟨j.val, by omega⟩ : Fin 128))) + x5 (ix2 (0 : Fin 1) (⟨j.val, by omega⟩ : Fin 128)) := by
  unfold k0_pay4
  exact (slice_lo_apply _ r j).trans (pay3_apply x0 hp x5 r _)

/-- The second result block at row `r`, column `j`: the exponential of column `64 + j` of `A · HP + b_c`. -/
theorem pay5_apply (x0 : Vec Ideal S400x10000 .f32) (hp : Vec Ideal S10000x128 .bf16) (x5 : Vec Ideal S1x128 .f32)
    (r : Fin 400) (j : Fin 64) :
    k0_pay5 (F := Ideal) x0 hp x5 (ix2 r j)
      = Ideal.exp ((∑ n : Fin 10000, x0 (ix2 r n) * hp (ix2 n (⟨64 + j.val, by omega⟩ : Fin 128))) + x5 (ix2 (0 : Fin 1) (⟨64 + j.val, by omega⟩ : Fin 128))) := by
  unfold k0_pay5
  show FloatOps.exp (extractStridedSlice S400x64 ![0, 64] (k0_pay3 (F := Ideal) x0 hp x5) slices_S400x128_o0_64_S400x64 (ix2 r j)) = _
  rw [Ideal.exp_def, slice_hi_apply, pay3_apply]

end Cert.KernelIdeal.Payload

end
-- ==== Proof.HostSide.lean ====
/-
  The arrays the kernel region finds, over the extended reals, read at one entry: the two format changes are the
  identity, the joined weight matrix holds `W_mu` in its first 64 columns and `W_sig` in its last 64, the two bias
  rows are the bias vectors laid out as one row, the joined one `b_mu` then `b_sig`.
-/
import proofs.«176933_g20486994002744_cont_8to1_9_11_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostSide

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-- The features in the narrower format are the features. -/
theorem V_v0 : (V m c main_v0 : S10000x128.Idx → EReal) = m ((c : Thread nD τ).loc main_arg0) := by
  -- the array is the format change of the launched features, and over the extended reals that change is the identity
  dsimp only [Gen.V, Gen.hostOps0]; after_results
  rfl

/-- The first weight matrix in the narrower format is itself. -/
theorem V_v1 : (V m c main_v1 : S128x128.Idx → EReal) = m ((c : Thread nD τ).loc main_arg2) := by
  dsimp only [Gen.V, Gen.hostOps0]; after_results
  rfl

/-- The joined weight matrix: its first 64 columns are `W_mu`. -/
theorem V_v3_left (k : Fin 128) (j : Fin 64) :
    (V m c main_v3 : S128x128.Idx → EReal) (ix2 k (⟨j.val, by omega⟩ : Fin 128)) = (m ((c : Thread nD τ).loc main_arg4) : S128x64.Idx → EReal) (ix2 k j) := by
  -- the array is the format change (the identity) of `W_mu | W_sig` joined along the columns
  dsimp only [Gen.V, Gen.hostOps0]; after_results
  -- column `j < 64` falls in the first piece, at the same row and column
  exact concatenate_pair_apply_left (t := S128x128) (s₁ := S128x64) (s₂ := S128x64) (1 : Fin 2) _ _
    concatenates_S128x64_S128x64_S128x128_d1 (ix2 k (⟨j.val, by omega⟩ : Fin 128)) rfl (ix2 k j)
    (fun b => match b with | ⟨0, _⟩ => rfl | ⟨1, _⟩ => rfl)

/-- The joined weight matrix: its last 64 columns are `W_sig`. -/
theorem V_v3_right (k : Fin 128) (j : Fin 64) :
    (V m c main_v3 : S128x128.Idx → EReal) (ix2 k (⟨64 + j.val, by omega⟩ : Fin 128)) = (m ((c : Thread nD τ).loc main_arg6) : S128x64.Idx → EReal) (ix2 k j) := by
  dsimp only [Gen.V, Gen.hostOps0]; after_results
  -- column `64 + j` falls in the second piece, at the same row and at column `j`
  exact concatenate_pair_apply_right (t := S128x128) (s₁ := S128x64) (s₂ := S128x64) (1 : Fin 2) _ _
    concatenates_S128x64_S128x64_S128x128_d1 (ix2 k (⟨64 + j.val, by omega⟩ : Fin 128)) rfl rfl (ix2 k j)
    (fun b hb => match b, hb with | ⟨0, _⟩, _ => rfl | ⟨1, _⟩, hb => absurd rfl hb)
    (Nat.add_comm j.val 64)

/-- The first bias row is the first bias vector. -/
theorem V_v4_apply (k : Fin 128) :
    (V m c main_v4 : S1x128.Idx → EReal) (ix2 (0 : Fin 1) k) = (m ((c : Thread nD τ).loc main_arg3) : S128.Idx → EReal) (ix1 k) := by
  -- the array is the bias vector laid out as one row: entry `(0, k)` has row-major position `k`
  dsimp only [Gen.V, Gen.hostOps0]; after_results
  exact shapeCast_a_1a_apply _ shapeCasts_S128_S1x128 (0 : Fin 1) k

/-- The joined bias row: its first 64 entries are `b_mu`. -/
theorem V_v6_left (j : Fin 64) :
    (V m c main_v6 : S1x128.Idx → EReal) (ix2 (0 : Fin 1) (⟨j.val, by omega⟩ : Fin 128)) = (m ((c : Thread nD τ).loc main_arg5) : S64.Idx → EReal) (ix1 j) := by
  -- the array is `b_mu` then `b_sig` joined, laid out as one row
  dsimp only [Gen.V, Gen.hostOps0]; after_results
  refine (shapeCast_a_1a_apply _ shapeCasts_S128_S1x128 (0 : Fin 1) (⟨j.val, by omega⟩ : Fin 128)).trans ?_
  -- position `j < 64` falls in the first piece, at the same position
  exact concatenate_pair_apply_left (t := S128) (s₁ := S64) (s₂ := S64) (0 : Fin 1) _ _
    concatenates_S64_S64_S128_d0 (ix1 (⟨j.val, by omega⟩ : Fin 128)) rfl (ix1 j)
    (fun b => match b with | ⟨0, _⟩ => rfl)

/-- The joined bias row: its last 64 entries are `b_sig`. -/
theorem V_v6_right (j : Fin 64) :
    (V m c main_v6 : S1x128.Idx → EReal) (ix2 (0 : Fin 1) (⟨64 + j.val, by omega⟩ : Fin 128)) = (m ((c : Thread nD τ).loc main_arg7) : S64.Idx → EReal) (ix1 j) := by
  dsimp only [Gen.V, Gen.hostOps0]; after_results
  refine (shapeCast_a_1a_apply _ shapeCasts_S128_S1x128 (0 : Fin 1) (⟨64 + j.val, by omega⟩ : Fin 128)).trans ?_
  -- position `64 + j` falls in the second piece, at position `j`
  exact concatenate_pair_apply_right (t := S128) (s₁ := S64) (s₂ := S64) (0 : Fin 1) _ _
    concatenates_S64_S64_S128_d0 (ix1 (⟨64 + j.val, by omega⟩ : Fin 128)) rfl rfl (ix1 j)
    (fun b hb => match b, hb with | ⟨0, _⟩, hb => absurd rfl hb)
    (Nat.add_comm j.val 64)

end Cert.KernelIdeal.HostSide

end
-- ==== Proof.Blocks.lean ====
/-
  Each input window's block at a grid point, read off the array the region finds. The adjacency window's block at point
  `t` is the 400 rows `[400 (t % 25), 400 (t % 25) + 400)` of the adjacency matrix, the same rows in both phases; the
  five other input windows stage their whole arrays at every point.
-/
import proofs.«176933_g20486994002744_cont_8to1_9_11_alg».proof.Proof.Gen.KernelIdeal.Frame
import Idealize.ShloMosaic.Lib.ValueIdx
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ) (c : Dev nD)

/-- At every point of the grid the adjacency window's block index is the point's second coordinate, `t % 25`, on the
    row axis and zero on the column axis. -/
theorem idx0 : ∀ t : Fin cfg0.N, win0_0.index t (0 : Fin 2) = t.val % 25 ∧ win0_0.index t (1 : Fin 2) = 0 :=
  (by decide +kernel : ∀ t : Fin grid0.N, _)

/-- The five whole-array windows' block indices are zero on both axes at every point. -/
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

/-- The adjacency block at point `t`, row `r`, column `n`, is the adjacency matrix at row `400 (t % 25) + r`. -/
theorem iblk0_apply (t : Fin cfg0.N) (r : Fin 400) (n : Fin 10000) :
    (iblk m c 0 t : S400x10000.Idx → Elt F .f32) (ix2 r n)
      = (V m c main_arg1 : S10000x10000.Idx → Elt F .f32) (ix2 (⟨400 * (t.val % 25) + r.val, by omega⟩ : Fin 10000) n) := by
  obtain ⟨e0, e1⟩ := idx0 t
  show V m c main_arg1 (((cfg0.win 0).blk t).view.emb (ix2 r n)) = V m c main_arg1 (ix2 (⟨400 * (t.val % 25) + r.val, by omega⟩ : Fin 10000) n)
  apply congrArg
  funext a; apply Fin.ext
  match a with
  | ⟨0, _⟩ => show win0_0.index t (0 : Fin 2) * 400 + 1 * r.val = 400 * (t.val % 25) + r.val; omega
  | ⟨1, _⟩ => show win0_0.index t (1 : Fin 2) * 10000 + 1 * n.val = n.val; omega

/-- The features window stages its whole array. -/
theorem iblk1_eq (t : Fin cfg0.N) : (iblk m c 1 t : S10000x128.Idx → Elt F .bf16) = V m c main_v0 := by
  obtain ⟨e0, e1⟩ := idx1 t
  funext j
  show V m c main_v0 (((cfg0.win 1).blk t).view.emb j) = V m c main_v0 j
  apply congrArg
  funext a; apply Fin.ext
  match a with
  | ⟨0, _⟩ => show win0_1.index t (0 : Fin 2) * 10000 + 1 * (j 0).val = (j 0).val; omega
  | ⟨1, _⟩ => show win0_1.index t (1 : Fin 2) * 128 + 1 * (j 1).val = (j 1).val; omega
/-- The first weight matrix window stages its whole array. -/
theorem iblk2_eq (t : Fin cfg0.N) : (iblk m c 2 t : S128x128.Idx → Elt F .bf16) = V m c main_v1 := by
  obtain ⟨e0, e1⟩ := idx2 t
  funext j
  show V m c main_v1 (((cfg0.win 2).blk t).view.emb j) = V m c main_v1 j
  apply congrArg
  funext a; apply Fin.ext
  match a with
  | ⟨0, _⟩ => show win0_2.index t (0 : Fin 2) * 128 + 1 * (j 0).val = (j 0).val; omega
  | ⟨1, _⟩ => show win0_2.index t (1 : Fin 2) * 128 + 1 * (j 1).val = (j 1).val; omega
/-- The first bias row window stages its whole array. -/
theorem iblk3_eq (t : Fin cfg0.N) : (iblk m c 3 t : S1x128.Idx → Elt F .f32) = V m c main_v4 := by
  obtain ⟨e0, e1⟩ := idx3 t
  funext j
  show V m c main_v4 (((cfg0.win 3).blk t).view.emb j) = V m c main_v4 j
  apply congrArg
  funext a; apply Fin.ext
  match a with
  | ⟨0, _⟩ => show win0_3.index t (0 : Fin 2) * 1 + 1 * (j 0).val = (j 0).val; omega
  | ⟨1, _⟩ => show win0_3.index t (1 : Fin 2) * 128 + 1 * (j 1).val = (j 1).val; omega
/-- The joined weight matrix window stages its whole array. -/
theorem iblk4_eq (t : Fin cfg0.N) : (iblk m c 4 t : S128x128.Idx → Elt F .bf16) = V m c main_v3 := by
  obtain ⟨e0, e1⟩ := idx4 t
  funext j
  show V m c main_v3 (((cfg0.win 4).blk t).view.emb j) = V m c main_v3 j
  apply congrArg
  funext a; apply Fin.ext
  match a with
  | ⟨0, _⟩ => show win0_4.index t (0 : Fin 2) * 128 + 1 * (j 0).val = (j 0).val; omega
  | ⟨1, _⟩ => show win0_4.index t (1 : Fin 2) * 128 + 1 * (j 1).val = (j 1).val; omega
/-- The joined bias row window stages its whole array. -/
theorem iblk5_eq (t : Fin cfg0.N) : (iblk m c 5 t : S1x128.Idx → Elt F .f32) = V m c main_v6 := by
  obtain ⟨e0, e1⟩ := idx5 t
  funext j
  show V m c main_v6 (((cfg0.win 5).blk t).view.emb j) = V m c main_v6 j
  apply congrArg
  funext a; apply Fin.ext
  match a with
  | ⟨0, _⟩ => show win0_5.index t (0 : Fin 2) * 1 + 1 * (j 0).val = (j 0).val; omega
  | ⟨1, _⟩ => show win0_5.index t (1 : Fin 2) * 128 + 1 * (j 1).val = (j 1).val; omega

end Cert.KernelIdeal.Blocks

end
-- ==== Proof.Spec.lean ====
/-
  The encoder as one function of its argument arrays, over the extended reals, and the one algebraic law the
  certificate needs.

  With `A` the adjacency matrix, `X` the features, the hidden layer is `H = max (A (X W₁) + b₁) 0` and each head is
  `A (H W) + b` (the second head then exponentiated). The kernel computes the hidden layer as `max ((A X) W₁ + b₁) 0`:
  the two groupings of the triple product agree when every entry is a real number (`hidK_eq_hid`); on the extended
  reals the product does not distribute over a sum that contains both infinities, so the law is stated for real entries.
-/
import Idealize.ShloMosaic.PureOps.Ideal
import Idealize.ShloMosaic.Lib.ValueIdx
import Mathlib.Data.EReal.Basic
import Mathlib.Algebra.BigOperators.Group.Finset.Sigma
import Mathlib.Algebra.BigOperators.Ring.Finset

noncomputable section

open scoped BigOperators

namespace Cert.Spec

open Idealize.ShloMosaic Idealize.ShloMosaic.ValueIdx

/-- A matrix of extended reals indexed by a rank-two index of literal extents. -/
abbrev A2 (a b : Nat) := (⟨2, ![a, b]⟩ : Shape).Idx → EReal
/-- A vector of extended reals indexed by a rank-one index of literal extent. -/
abbrev A1 (a : Nat) := (⟨1, ![a]⟩ : Shape).Idx → EReal

/-- Every entry of the family is a real number. -/
def IsReal {ι : Type} (f : ι → EReal) : Prop := ∀ i, ∃ r : ℝ, f i = (r : EReal)

/-- The hidden layer, grouped as the reference groups it: `max (A (X W₁) + b₁) 0` at row `r`, column `k`. -/
def hid (x : A2 10000 128) (adj : A2 10000 10000) (W1 : A2 128 128) (b1 : A1 128) (r : Fin 10000) (k : Fin 128) : EReal :=
  max ((∑ n : Fin 10000, adj (ix2 r n) * ∑ j : Fin 128, x (ix2 n j) * W1 (ix2 j k)) + b1 (ix1 k)) 0

/-- The hidden layer, grouped as the kernel groups it: `max ((A X) W₁ + b₁) 0` at row `r`, column `k`. -/
def hidK (x : A2 10000 128) (adj : A2 10000 10000) (W1 : A2 128 128) (b1 : A1 128) (r : Fin 10000) (k : Fin 128) : EReal :=
  max ((∑ j : Fin 128, (∑ n : Fin 10000, adj (ix2 r n) * x (ix2 n j)) * W1 (ix2 j k)) + b1 (ix1 k)) 0

/-- One head before its activation, over a hidden layer `h`: `A (h W) + b` at row `r`, column `j`. -/
def headOf (h : Fin 10000 → Fin 128 → EReal) (adj : A2 10000 10000) (W : A2 128 64) (b : A1 64) (r : Fin 10000) (j : Fin 64) : EReal :=
  (∑ n : Fin 10000, adj (ix2 r n) * ∑ k : Fin 128, h n k * W (ix2 k j)) + b (ix1 j)

/-- The first result: the mean head, `A (H W_mu) + b_mu`. -/
def mu (x : A2 10000 128) (adj : A2 10000 10000) (W1 : A2 128 128) (b1 : A1 128) (Wmu : A2 128 64) (bmu : A1 64) : A2 10000 64 :=
  fun y => headOf (hid x adj W1 b1) adj Wmu bmu (y 0) (y 1)

/-- The second result: the exponential of the other head, `exp (A (H W_sig) + b_sig)`. -/
def sig (x : A2 10000 128) (adj : A2 10000 10000) (W1 : A2 128 128) (b1 : A1 128) (Wsig : A2 128 64) (bsig : A1 64) : A2 10000 64 :=
  fun y => Ideal.exp (headOf (hid x adj W1 b1) adj Wsig bsig (y 0) (y 1))

/-- The inclusion of the reals in the extended reals commutes with finite sums. -/
private theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty, EReal.coe_zero]
  · intro i s hi ih
    rw [Finset.sum_insert hi, Finset.sum_insert hi, EReal.coe_add, ih]

/-- ASSOCIATIVITY OF THE TRIPLE PRODUCT for real entries: `Σ_j (Σ_n a n · x n j) · w j = Σ_n a n · Σ_j x n j · w j`. -/
theorem sum_assoc {N J : Type} [Fintype N] [Fintype J] (a : N → EReal) (x : N → J → EReal) (w : J → EReal)
    (ha : IsReal a) (hx : ∀ n, IsReal (x n)) (hw : IsReal w) :
    ∑ j, (∑ n, a n * x n j) * w j = ∑ n, a n * ∑ j, x n j * w j := by
  -- name the real number behind every entry
  have hx' : ∀ n j, ∃ r : ℝ, x n j = (r : EReal) := fun n j => hx n j
  choose ar har using (show ∀ n, ∃ r : ℝ, a n = (r : EReal) from ha)
  choose xr hxr using hx'
  choose wr hwr using (show ∀ j, ∃ r : ℝ, w j = (r : EReal) from hw)
  -- both sides are the inclusion of a real number
  have hL : ∑ j, (∑ n, a n * x n j) * w j = ((∑ j, (∑ n, ar n * xr n j) * wr j : ℝ) : EReal) := by
    rw [coe_sum]
    refine Finset.sum_congr rfl fun j _ => ?_
    rw [EReal.coe_mul, coe_sum, hwr j]
    congr 1
    refine Finset.sum_congr rfl fun n _ => ?_
    rw [EReal.coe_mul, har n, hxr n j]
  have hR : ∑ n, a n * ∑ j, x n j * w j = ((∑ n, ar n * ∑ j, xr n j * wr j : ℝ) : EReal) := by
    rw [coe_sum]
    refine Finset.sum_congr rfl fun n _ => ?_
    rw [EReal.coe_mul, coe_sum, har n]
    congr 1
    refine Finset.sum_congr rfl fun j _ => ?_
    rw [EReal.coe_mul, hxr n j, hwr j]
  rw [hL, hR]
  congr 1
  -- over the reals: distribute, exchange the two sums, reassociate
  calc ∑ j, (∑ n, ar n * xr n j) * wr j
      = ∑ j, ∑ n, ar n * (xr n j * wr j) := by
        refine Finset.sum_congr rfl fun j _ => ?_
        rw [Finset.sum_mul]
        exact Finset.sum_congr rfl fun n _ => mul_assoc _ _ _
    _ = ∑ n, ∑ j, ar n * (xr n j * wr j) := Finset.sum_comm
    _ = ∑ n, ar n * ∑ j, xr n j * wr j := by
        refine Finset.sum_congr rfl fun n _ => ?_
        rw [Finset.mul_sum]

/-- The kernel's grouping of the hidden layer is the reference's, when the three matrices have real entries. -/
theorem hidK_eq_hid (x : A2 10000 128) (adj : A2 10000 10000) (W1 : A2 128 128) (b1 : A1 128)
    (hx : IsReal x) (hadj : IsReal adj) (hW1 : IsReal W1) (r : Fin 10000) (k : Fin 128) :
    hidK x adj W1 b1 r k = hid x adj W1 b1 r k := by
  -- the two sides differ only in the grouping of the triple product under `max (· + b₁) 0`
  have h := sum_assoc (fun n : Fin 10000 => adj (ix2 r n)) (fun (n : Fin 10000) (j : Fin 128) => x (ix2 n j))
    (fun j : Fin 128 => W1 (ix2 j k)) (fun n => hadj (ix2 r n)) (fun n j => hx (ix2 n j)) (fun j => hW1 (ix2 j k))
  exact congrArg (fun t : EReal => max (t + b1 (ix1 k)) 0) h

end Cert.Spec

end
-- ==== Proof.Bridge.lean ====
/-
  The kernel's two results are the specification's, over the extended reals, when the features, the adjacency matrix
  and the first weight matrix have real entries.

  Row `r` of the projected hidden layer is `Σ_k max ((A X) W₁ + b₁) 0 (r, k) · W_c (k, ·)`, every operand read off the
  argument arrays: the adjacency block of point `r / 400` at row `r % 400` is row `r` of the adjacency matrix, the staged
  features and weights are the arguments, the joined weights are `W_mu` then `W_sig`. Regrouping the triple product
  (real entries) gives the specification's hidden layer; the results' rows read the same way in phase 1.
-/
import proofs.«176933_g20486994002744_cont_8to1_9_11_alg».proof.Proof.FinalArrays
import proofs.«176933_g20486994002744_cont_8to1_9_11_alg».proof.Proof.Payload
import proofs.«176933_g20486994002744_cont_8to1_9_11_alg».proof.Proof.HostSide
import proofs.«176933_g20486994002744_cont_8to1_9_11_alg».proof.Proof.Blocks
import proofs.«176933_g20486994002744_cont_8to1_9_11_alg».proof.Proof.Spec

set_option maxRecDepth 16384

noncomputable section

open scoped BigOperators

namespace Cert.KernelIdeal.Bridge

open Cert.KernelIdeal Cert.KernelIdeal.Gen Cert.KernelIdeal.Hand Idealize.ShloMosaic Idealize.ShloMosaic.TcCoe Idealize.ShloMosaic.ValueIdx Idealize.SL.Sem

variable (m : (ℓ : Loc nD τ sig) → Buf (Elt Ideal) ℓ) (c : Dev nD)

/-- Row `n % 400` of the adjacency block of a point whose residue modulo 25 is `n / 400` is row `n` of the
    adjacency matrix. -/
theorem adjRow (t : Fin cfg0.N) (n : Fin 10000) (ht : t.val % 25 = n.val / 400) (k : Fin 10000) :
    (iblk m c 0 t : S400x10000.Idx → EReal) (ix2 (⟨n.val % 400, Nat.mod_lt _ (by norm_num)⟩ : Fin 400) k)
      = (m ((c.tc : Thread nD τ).loc main_arg1) : S10000x10000.Idx → EReal) (ix2 n k) := by
  refine (Blocks.iblk0_apply m c t (⟨n.val % 400, Nat.mod_lt _ (by norm_num)⟩ : Fin 400) k).trans ?_
  refine (congrFun (V_main_arg1 m c) _).trans ?_
  -- `400 (n / 400) + n % 400 = n`
  exact congrArg (fun i : Fin 10000 => (m ((c.tc : Thread nD τ).loc main_arg1) : S10000x10000.Idx → EReal) (ix2 i k))
    (Fin.ext (by show 400 * (t.val % 25) + n.val % 400 = n.val; omega))

/-- Row `n` of the projected hidden layer: the kernel's grouping of the hidden layer at row `n`, times the joined
    weight matrix. -/
theorem HP_apply (n : Fin 10000) (j : Fin 128) :
    (HP (F := Ideal) m c : S10000x128.Idx → EReal) (ix2 n j)
      = ∑ k : Fin 128, Cert.Spec.hidK (m ((c.tc : Thread nD τ).loc main_arg0)) (m ((c.tc : Thread nD τ).loc main_arg1)) (m ((c.tc : Thread nD τ).loc main_arg2)) (m ((c.tc : Thread nD τ).loc main_arg3)) n k
          * (V m c main_v3 : S128x128.Idx → EReal) (ix2 k j) := by
  -- row `n` is row `n % 400` of the block of point `n / 400`
  have h : (HP (F := Ideal) m c : S10000x128.Idx → EReal) (ix2 n j)
      = k0_pay2 (F := Ideal) (iblk m c 0 (rowPt n.val n.isLt)) (iblk m c 1 (rowPt n.val n.isLt)) (iblk m c 2 (rowPt n.val n.isLt))
          (iblk m c 3 (rowPt n.val n.isLt)) (iblk m c 4 (rowPt n.val n.isLt))
          (ix2 (⟨n.val % 400, Nat.mod_lt _ (by norm_num)⟩ : Fin 400) j) := rfl
  refine h.trans ((Payload.pay2_apply _ _ _ _ _ _ _).trans ?_)
  refine Finset.sum_congr rfl fun k _ => ?_
  refine congrArg₂ (· * ·) ?_ (congrFun (Blocks.iblk4_eq m c _) _)
  unfold Cert.Spec.hidK
  refine congrArg₂ (fun a b : EReal => max (a + b) 0) ?_ ((congrFun (Blocks.iblk3_eq m c _) _).trans (HostSide.V_v4_apply m c k))
  refine Finset.sum_congr rfl fun q _ => ?_
  refine congrArg₂ (· * ·) ?_ ((congrFun (Blocks.iblk2_eq m c _) _).trans (congrFun (HostSide.V_v1 m c) _))
  refine Finset.sum_congr rfl fun n' _ => ?_
  have hn := n.isLt
  exact congrArg₂ (· * ·) (adjRow m c (rowPt n.val n.isLt) n (by show (n.val / 400) % 25 = n.val / 400; omega) n')
    ((congrFun (Blocks.iblk1_eq m c _) _).trans (congrFun (HostSide.V_v0 m c) _))

/-- One column of a result block before its activation. Let `x0` be a 400-row block whose row `r % 400` is row `r` of
    the adjacency matrix, and `q` a column of the joined arrays that reads column `j` of a head's weight matrix `W`
    and entry `j` of its bias `b` (through the bias row `x5`). Then row `r % 400` of `x0` times the projected hidden
    layer, plus the bias, is the specification's head at `(r, j)`. -/
theorem headRow
    (hx : Cert.Spec.IsReal (m ((c.tc : Thread nD τ).loc main_arg0) : S10000x128.Idx → EReal))
    (hadj : Cert.Spec.IsReal (m ((c.tc : Thread nD τ).loc main_arg1) : S10000x10000.Idx → EReal))
    (hW1 : Cert.Spec.IsReal (m ((c.tc : Thread nD τ).loc main_arg2) : S128x128.Idx → EReal))
    (W : Cert.Spec.A2 128 64) (b : Cert.Spec.A1 64) (r : Fin 10000) (j : Fin 64) (q : Fin 128)
    (x0 : S400x10000.Idx → EReal) (x5 : S1x128.Idx → EReal)
    (h0 : ∀ n : Fin 10000, x0 (ix2 (⟨r.val % 400, Nat.mod_lt _ (by norm_num)⟩ : Fin 400) n)
      = (m ((c.tc : Thread nD τ).loc main_arg1) : S10000x10000.Idx → EReal) (ix2 r n))
    (h5 : x5 (ix2 (0 : Fin 1) q) = b (ix1 j))
    (hW : ∀ k : Fin 128, (V m c main_v3 : S128x128.Idx → EReal) (ix2 k q) = W (ix2 k j)) :
    (∑ n : Fin 10000, x0 (ix2 (⟨r.val % 400, Nat.mod_lt _ (by norm_num)⟩ : Fin 400) n)
        * (HP (F := Ideal) m c : S10000x128.Idx → EReal) (ix2 n q))
      + x5 (ix2 (0 : Fin 1) q)
      = Cert.Spec.headOf (Cert.Spec.hid (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) W b r j := by
  unfold Cert.Spec.headOf
  refine congrArg₂ (· + ·) ?_ h5
  refine Finset.sum_congr rfl fun n _ => ?_
  refine congrArg₂ (· * ·) (h0 n) ?_
  refine (HP_apply m c n q).trans ?_
  refine Finset.sum_congr rfl fun k _ => ?_
  -- regroup the triple product (real entries)
  exact congrArg₂ (· * ·) (Cert.Spec.hidK_eq_hid _ _ _ _ hx hadj hW1 n k) (hW k)

/-- The point `25 + r / 400` reads the same adjacency rows as the point `r / 400`: row `r % 400` of its block is row
    `r` of the adjacency matrix. -/
theorem outRow (r : Fin 10000) (n : Fin 10000) :
    (iblk m c 0 (outPt r.val r.isLt) : S400x10000.Idx → EReal) (ix2 (⟨r.val % 400, Nat.mod_lt _ (by norm_num)⟩ : Fin 400) n)
      = (m ((c.tc : Thread nD τ).loc main_arg1) : S10000x10000.Idx → EReal) (ix2 r n) := by
  have hr := r.isLt
  exact adjRow m c (outPt r.val r.isLt) r (by show (25 + r.val / 400) % 25 = r.val / 400; omega) n

/-- The kernel's first result is the specification's mean head. -/
theorem muOut_eq
    (hx : Cert.Spec.IsReal (m ((c.tc : Thread nD τ).loc main_arg0) : S10000x128.Idx → EReal))
    (hadj : Cert.Spec.IsReal (m ((c.tc : Thread nD τ).loc main_arg1) : S10000x10000.Idx → EReal))
    (hW1 : Cert.Spec.IsReal (m ((c.tc : Thread nD τ).loc main_arg2) : S128x128.Idx → EReal)) :
    (muOut (F := Ideal) m c : S10000x64.Idx → EReal)
      = Cert.Spec.mu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  funext y
  obtain ⟨r, j, rfl⟩ : ∃ (r : Fin 10000) (j : Fin 64), y = ix2 r j := ⟨y 0, y 1, eq_ix2 y⟩
  -- row `r` is row `r % 400` of the block of point `25 + r / 400`
  have h : (muOut (F := Ideal) m c : S10000x64.Idx → EReal) (ix2 r j)
      = k0_pay4 (F := Ideal) (iblk m c 0 (outPt r.val r.isLt)) (HP m c) (iblk m c 5 (outPt r.val r.isLt))
          (ix2 (⟨r.val % 400, Nat.mod_lt _ (by norm_num)⟩ : Fin 400) j) := rfl
  refine h.trans ((Payload.pay4_apply _ _ _ _ _).trans ?_)
  -- the first 64 columns of the joined arrays are the mean head's
  exact headRow m c hx hadj hW1 _ _ r j _ (iblk m c 0 (outPt r.val r.isLt)) (iblk m c 5 (outPt r.val r.isLt)) (outRow m c r)
    ((congrFun (Blocks.iblk5_eq m c _) _).trans (HostSide.V_v6_left m c j)) (fun k => HostSide.V_v3_left m c k j)

/-- The kernel's second result is the specification's exponentiated head. -/
theorem sigOut_eq
    (hx : Cert.Spec.IsReal (m ((c.tc : Thread nD τ).loc main_arg0) : S10000x128.Idx → EReal))
    (hadj : Cert.Spec.IsReal (m ((c.tc : Thread nD τ).loc main_arg1) : S10000x10000.Idx → EReal))
    (hW1 : Cert.Spec.IsReal (m ((c.tc : Thread nD τ).loc main_arg2) : S128x128.Idx → EReal)) :
    (sigOut (F := Ideal) m c : S10000x64.Idx → EReal)
      = Cert.Spec.sig (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) := by
  funext y
  obtain ⟨r, j, rfl⟩ : ∃ (r : Fin 10000) (j : Fin 64), y = ix2 r j := ⟨y 0, y 1, eq_ix2 y⟩
  have h : (sigOut (F := Ideal) m c : S10000x64.Idx → EReal) (ix2 r j)
      = k0_pay5 (F := Ideal) (iblk m c 0 (outPt r.val r.isLt)) (HP m c) (iblk m c 5 (outPt r.val r.isLt))
          (ix2 (⟨r.val % 400, Nat.mod_lt _ (by norm_num)⟩ : Fin 400) j) := rfl
  refine h.trans ((Payload.pay5_apply _ _ _ _ _).trans ?_)
  -- the last 64 columns of the joined arrays are the other head's, then the exponential on both sides
  exact congrArg Ideal.exp
    (headRow m c hx hadj hW1 _ _ r j _ (iblk m c 0 (outPt r.val r.isLt)) (iblk m c 5 (outPt r.val r.isLt)) (outRow m c r)
      ((congrFun (Blocks.iblk5_eq m c _) _).trans (HostSide.V_v6_right m c j)) (fun k => HostSide.V_v3_right m c k j))

end Cert.KernelIdeal.Bridge

end
-- ==== Proof.RefValue.lean ====
/-
  The reference, read one operation at a time, is the encoder's specification: at every index its first result is
  `A (H W_mu) + b_mu` and its second `exp (A (H W_sig) + b_sig)` with `H = max (A (X W₁) + b₁) 0`, each matrix
  product the sum over its one contracted axis.
-/
import proofs.«176933_g20486994002744_cont_8to1_9_11_alg».proof.Proof.Gen.ReferenceIdeal.Read
import proofs.«176933_g20486994002744_cont_8to1_9_11_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The first product `X W₁` at row `n`, column `k`: the sum over the feature axis. -/
theorem v0_at (x0 : (⟨S10000x128, .f32⟩ : BufTy).Contents (Elt Ideal)) (x2 : (⟨S128x128, .f32⟩ : BufTy).Contents (Elt Ideal)) (n : Fin 10000) (k : Fin 128) :
    val_main_v0 (F := Ideal) x0 x2 (ix2 n k) = ∑ j : Fin 128, x0 (ix2 n j) * x2 (ix2 j k) := by
  rw [val_main_v0_apply]
  refine Finset.sum_congr rfl fun j _ => ?_
  rw [show lidx_main_v0 (ix2 n k) j = ix2 n j from funext fun a => Fin.ext (by match a with | ⟨0, _⟩ => rfl | ⟨1, _⟩ => rfl),
    show ridx_main_v0 (ix2 n k) j = ix2 j k from funext fun a => Fin.ext (by match a with | ⟨0, _⟩ => rfl | ⟨1, _⟩ => rfl)]

/-- The second product `A (X W₁)` at row `r`, column `k`: the sum over the node axis. -/
theorem v1_at (x0 : (⟨S10000x128, .f32⟩ : BufTy).Contents (Elt Ideal)) (x1 : (⟨S10000x10000, .f32⟩ : BufTy).Contents (Elt Ideal)) (x2 : (⟨S128x128, .f32⟩ : BufTy).Contents (Elt Ideal)) (r : Fin 10000) (k : Fin 128) :
    val_main_v1 (F := Ideal) x0 x1 x2 (ix2 r k)
      = ∑ n : Fin 10000, x1 (ix2 r n) * ∑ j : Fin 128, x0 (ix2 n j) * x2 (ix2 j k) := by
  rw [val_main_v1_apply]
  refine Finset.sum_congr rfl fun n _ => ?_
  rw [show lidx_main_v1 (ix2 r k) n = ix2 r n from funext fun a => Fin.ext (by match a with | ⟨0, _⟩ => rfl | ⟨1, _⟩ => rfl),
    show ridx_main_v1 (ix2 r k) n = ix2 n k from funext fun a => Fin.ext (by match a with | ⟨0, _⟩ => rfl | ⟨1, _⟩ => rfl), v0_at]

/-- The hidden layer's bias, broadcast along the rows, read at row `r`, column `k`. -/
theorem v3_at (x3 : (⟨S128, .f32⟩ : BufTy).Contents (Elt Ideal)) (r : Fin 10000) (k : Fin 128) :
    val_main_v3 (F := Ideal) x3 (ix2 r k) = x3 (ix1 k) := by
  rw [val_main_v3_apply, val_main_v2_apply]
  exact congrArg x3 (funext fun a => Fin.ext (by match a with | ⟨0, _⟩ => rfl))

/-- The broadcast zero constant is the extended real `0` at every index. -/
theorem v5_at (i : S10000x128.Idx) : val_main_v5 (F := Ideal) i = 0 := by
  rw [val_main_v5_apply, val_main_cst_apply, Ideal.ofBits_def, Ideal.ofBits_zero_f32]

/-- The reference's hidden layer is the specification's `max (A (X W₁) + b₁) 0`. -/
theorem v6_at (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (r : Fin 10000) (k : Fin 128) :
    val_main_v6 (F := Ideal) x0 x1 x2 x3 (ix2 r k) = Cert.Spec.hid x0 x1 x2 x3 r k := by
  rw [val_main_v6_apply, val_main_v4_apply, v1_at, v3_at, v5_at, Ideal.addf_def, Ideal.maximumf_def]
  rfl

/-- The mean head's inner product `H W` at row `n`, column `j`: the sum over the hidden axis. -/
theorem v7_at (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (w : (⟨S128x64, .f32⟩ : BufTy).Contents (Elt Ideal)) (n : Fin 10000) (j : Fin 64) :
    val_main_v7 (F := Ideal) x0 x1 x2 x3 w (ix2 n j)
      = ∑ k : Fin 128, Cert.Spec.hid x0 x1 x2 x3 n k * w (ix2 k j) := by
  rw [val_main_v7_apply]
  refine Finset.sum_congr rfl fun k _ => ?_
  rw [show lidx_main_v7 (ix2 n j) k = ix2 n k from funext fun a => Fin.ext (by match a with | ⟨0, _⟩ => rfl | ⟨1, _⟩ => rfl),
    show ridx_main_v7 (ix2 n j) k = ix2 k j from funext fun a => Fin.ext (by match a with | ⟨0, _⟩ => rfl | ⟨1, _⟩ => rfl), v6_at]

/-- The mean head's outer product `A (H W)` at row `r`, column `j`: the sum over the node axis. -/
theorem v8_at (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (w : (⟨S128x64, .f32⟩ : BufTy).Contents (Elt Ideal)) (r : Fin 10000) (j : Fin 64) :
    val_main_v8 (F := Ideal) x0 x1 x2 x3 w (ix2 r j)
      = ∑ n : Fin 10000, x1 (ix2 r n) * ∑ k : Fin 128, Cert.Spec.hid x0 x1 x2 x3 n k * w (ix2 k j) := by
  rw [val_main_v8_apply]
  refine Finset.sum_congr rfl fun n _ => ?_
  rw [show lidx_main_v8 (ix2 r j) n = ix2 r n from funext fun a => Fin.ext (by match a with | ⟨0, _⟩ => rfl | ⟨1, _⟩ => rfl),
    show ridx_main_v8 (ix2 r j) n = ix2 n j from funext fun a => Fin.ext (by match a with | ⟨0, _⟩ => rfl | ⟨1, _⟩ => rfl), v7_at]

/-- The mean head's bias, broadcast along the rows, read at row `r`, column `j`. -/
theorem v10_at (b : (⟨S64, .f32⟩ : BufTy).Contents (Elt Ideal)) (r : Fin 10000) (j : Fin 64) :
    val_main_v10 (F := Ideal) b (ix2 r j) = b (ix1 j) := by
  rw [val_main_v10_apply, val_main_v9_apply]
  exact congrArg b (funext fun a => Fin.ext (by match a with | ⟨0, _⟩ => rfl))

/-- The mean head before its activation is the specification's `A (H W) + b`. -/
theorem v11_at (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (w : (⟨S128x64, .f32⟩ : BufTy).Contents (Elt Ideal)) (b : (⟨S64, .f32⟩ : BufTy).Contents (Elt Ideal)) (r : Fin 10000) (j : Fin 64) :
    val_main_v11 (F := Ideal) x0 x1 x2 x3 w b (ix2 r j)
      = Cert.Spec.headOf (Cert.Spec.hid x0 x1 x2 x3) x1 w b r j := by
  rw [val_main_v11_apply, v8_at, v10_at, Ideal.addf_def]
  rfl

/-- The second head's inner product `H W` at row `n`, column `j`: the sum over the hidden axis. -/
theorem v12_at (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (w : (⟨S128x64, .f32⟩ : BufTy).Contents (Elt Ideal)) (n : Fin 10000) (j : Fin 64) :
    val_main_v12 (F := Ideal) x0 x1 x2 x3 w (ix2 n j)
      = ∑ k : Fin 128, Cert.Spec.hid x0 x1 x2 x3 n k * w (ix2 k j) := by
  rw [val_main_v12_apply]
  refine Finset.sum_congr rfl fun k _ => ?_
  rw [show lidx_main_v12 (ix2 n j) k = ix2 n k from funext fun a => Fin.ext (by match a with | ⟨0, _⟩ => rfl | ⟨1, _⟩ => rfl),
    show ridx_main_v12 (ix2 n j) k = ix2 k j from funext fun a => Fin.ext (by match a with | ⟨0, _⟩ => rfl | ⟨1, _⟩ => rfl), v6_at]

/-- The second head's outer product `A (H W)` at row `r`, column `j`: the sum over the node axis. -/
theorem v13_at (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (w : (⟨S128x64, .f32⟩ : BufTy).Contents (Elt Ideal)) (r : Fin 10000) (j : Fin 64) :
    val_main_v13 (F := Ideal) x0 x1 x2 x3 w (ix2 r j)
      = ∑ n : Fin 10000, x1 (ix2 r n) * ∑ k : Fin 128, Cert.Spec.hid x0 x1 x2 x3 n k * w (ix2 k j) := by
  rw [val_main_v13_apply]
  refine Finset.sum_congr rfl fun n _ => ?_
  rw [show lidx_main_v13 (ix2 r j) n = ix2 r n from funext fun a => Fin.ext (by match a with | ⟨0, _⟩ => rfl | ⟨1, _⟩ => rfl),
    show ridx_main_v13 (ix2 r j) n = ix2 n j from funext fun a => Fin.ext (by match a with | ⟨0, _⟩ => rfl | ⟨1, _⟩ => rfl), v12_at]

/-- The second head's bias, broadcast along the rows, read at row `r`, column `j`. -/
theorem v15_at (b : (⟨S64, .f32⟩ : BufTy).Contents (Elt Ideal)) (r : Fin 10000) (j : Fin 64) :
    val_main_v15 (F := Ideal) b (ix2 r j) = b (ix1 j) := by
  rw [val_main_v15_apply, val_main_v14_apply]
  exact congrArg b (funext fun a => Fin.ext (by match a with | ⟨0, _⟩ => rfl))

/-- The second head before its activation is the specification's `A (H W) + b`. -/
theorem v16_at (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (w : (⟨S128x64, .f32⟩ : BufTy).Contents (Elt Ideal)) (b : (⟨S64, .f32⟩ : BufTy).Contents (Elt Ideal)) (r : Fin 10000) (j : Fin 64) :
    val_main_v16 (F := Ideal) x0 x1 x2 x3 w b (ix2 r j)
      = Cert.Spec.headOf (Cert.Spec.hid x0 x1 x2 x3) x1 w b r j := by
  rw [val_main_v16_apply, v13_at, v15_at, Ideal.addf_def]
  rfl

/-- The reference's first result is the specification's mean head. -/
theorem mu_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) :
    val_main_v11 (F := Ideal) x0 x1 x2 x3 x4 x5 = Cert.Spec.mu x0 x1 x2 x3 x4 x5 := by
  funext i
  obtain ⟨r, j, rfl⟩ : ∃ (r : Fin 10000) (j : Fin 64), i = ix2 r j := ⟨i 0, i 1, eq_ix2 i⟩
  rw [v11_at]
  rfl

/-- The reference's second result is the specification's exponentiated head. -/
theorem sig_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x6 : (⟨S128x64, .f32⟩ : BufTy).Contents (Elt Ideal)) (x7 : (⟨S64, .f32⟩ : BufTy).Contents (Elt Ideal)) :
    val_main_v17 (F := Ideal) x0 x1 x2 x3 x6 x7 = Cert.Spec.sig x0 x1 x2 x3 x6 x7 := by
  funext i
  obtain ⟨r, j, rfl⟩ : ∃ (r : Fin 10000) (j : Fin 64), i = ix2 r j := ⟨i 0, i 1, eq_ix2 i⟩
  rw [val_main_v17_apply, v16_at, Ideal.hostUnary_exp_def]
  rfl

end Cert.ReferenceIdeal.RefValue

end
-- ==== Proof.Finite.lean ====
/-
  From the precondition to real entries: the precondition says of every argument array that the absolute value of each
  entry is below +∞; on the extended reals such an entry is a real number. Stated for the three arrays whose entries
  the certificate needs real: the features, the adjacency matrix and the first weight matrix.
-/
import proofs.«176933_g20486994002744_cont_8to1_9_11_alg».proof.Defs
import proofs.«176933_g20486994002744_cont_8to1_9_11_alg».proof.Proof.Gen.Pre_finite_inputs
import proofs.«176933_g20486994002744_cont_8to1_9_11_alg».proof.Proof.Spec
import Idealize.ShloMosaic.Lib.ReduceAll
import Idealize.ShloMosaic.Lib.ValueIdx

noncomputable section

namespace Cert.KernelIdeal.Finite

open Cert.KernelIdeal Idealize.ShloMosaic Idealize.ShloMosaic.TcCoe Idealize.ShloMosaic.ValueIdx Idealize.SL.Sem

/-- The rank-zero shape has exactly one index: a family over the empty set of axes. -/
private instance : Subsingleton Cert.Pre_finite_inputs.S_.Idx := ⟨fun a b => funext fun d => d.elim0⟩

/-- The pattern with all-ones exponent, zero significand and clear sign denotes +∞. -/
private theorem inf_eq_top : Ideal.ofBits .f32 0x7F800000#32 = (⊤ : EReal) := by
  simp [Ideal.ofBits, Ideal.ieee]

/-- An extended real whose absolute value `max x (-x)` is strictly below +∞ is a real number: at −∞ the absolute
    value is +∞ (as it is at +∞), and +∞ is not below itself. -/
private theorem real_of_abs_lt_inf (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

/-- A pointwise conjunction of two one-bit vectors that is 1 at an index has both operands 1 there. -/
private theorem andi_at {s : Shape} (a b : IVec s 1) (i : s.Idx) (h : andi a b i = 1#1) : a i = 1#1 ∧ b i = 1#1 :=
  IntOp.andi_eq_one.1 h

/-- One conjunct of the precondition, read back: if the conjunction over ALL indices of `|x i| < +∞` is 1, every
    entry of `x` is a real number. -/
private theorem isReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x) (broadcastInDim s ![] hb (constant Cert.Pre_finite_inputs.S_ .f32 0x7F800000#32)))
        (constantI Cert.Pre_finite_inputs.S_ 1 1#1) hr hu ix0 = 1#1) :
    Cert.Spec.IsReal (x : s.Idx → EReal) := by
  intro i
  -- the comparison is 1 at every index, in particular at `i`
  have hi := Host.reduce_andi_all _ _ hr hu ix0 e i
  -- at `i` the comparison is `max (x i) (-(x i)) < +∞`
  exact real_of_abs_lt_inf (x i) hi

/-- Under the precondition the features, the adjacency matrix and the first weight matrix have real entries. -/
theorem real_of_pre [hP : Cert.Pre_finite_inputs.Facts] (m : (ℓ : Loc nD τ sig) → Buf (Elt Ideal) ℓ)
    (h : Cert.Pre_KernelIdeal m) (c : Dev nD) :
    Cert.Spec.IsReal (m ((c.tc : Thread nD τ).loc main_arg0) : S10000x128.Idx → EReal)
    ∧ Cert.Spec.IsReal (m ((c.tc : Thread nD τ).loc main_arg1) : S10000x10000.Idx → EReal)
    ∧ Cert.Spec.IsReal (m ((c.tc : Thread nD τ).loc main_arg2) : S128x128.Idx → EReal) := by
  -- the precondition at the one index of its rank-zero result, its chain of operations in view
  have h0 := congrFun (h c) ValueIdx.ix0
  dsimp only [Cert.Pre_finite_inputs.fn, Cert.Pre_finite_inputs.fn_part1, Cert.Pre_finite_inputs.fn_part2] at h0
  -- the eight conjuncts nest to the left, the last array outermost: drop the five outer ones, keep the inner three
  obtain ⟨h6, -⟩ := andi_at _ _ _ h0
  obtain ⟨h5, -⟩ := andi_at _ _ _ h6
  obtain ⟨h4, -⟩ := andi_at _ _ _ h5
  obtain ⟨h3, -⟩ := andi_at _ _ _ h4
  obtain ⟨h2, -⟩ := andi_at _ _ _ h3
  obtain ⟨h01, ha2⟩ := andi_at _ _ _ h2
  obtain ⟨ha0, ha1⟩ := andi_at _ _ _ h01
  exact ⟨isReal_of_all _ _ _ _ ha0, isReal_of_all _ _ _ _ ha1, isReal_of_all _ _ _ _ ha2⟩

end Cert.KernelIdeal.Finite

end
-- ==== Proof.lean ====
/-
  The certificate of the graph-convolution encoder kernel against its reference.

  The kernel makes two passes over the adjacency matrix `A` in one grid of 2 × 25 points. In the first pass point `t`
  computes rows `[400 t, 400 t + 400)` of `max ((A X) W₁ + b₁) 0 · [W_mu | W_sig]` and keeps them in a scratch buffer;
  in the second pass point `25 + q` computes rows `[400 q, 400 q + 400)` of `A · scratch + [b_mu | b_sig]` and writes
  the first 64 columns to the first result and the exponential of the last 64 to the second. The reference computes
  `max (A (X W₁) + b₁) 0`, then `A (H W_mu) + b_mu` and `exp (A (H W_sig) + b_sig)`.

  Over the extended reals a change of float format is the identity and each matrix product is the sum over its
  contracted axis, so the two programs differ only in the grouping of `A X W₁`; the two groupings agree because the
  precondition makes every entry of `A`, `X` and `W₁` a real number.

  The frames of the two kernel programs are one argument, stated for any float instance: between grid points the scratch
  agrees with the projected hidden layer on the rows stored so far, the result windows are idle through the first pass,
  and each second-pass point leaves its block of each result. The reference's frame is its run with the results dropped.
  The idealization rewrote no operation, so it is preserved trivially.
-/
import proofs.«176933_g20486994002744_cont_8to1_9_11_alg».proof.Defs
import proofs.«176933_g20486994002744_cont_8to1_9_11_alg».proof.Proof.Gen.Kernel
import proofs.«176933_g20486994002744_cont_8to1_9_11_alg».proof.Proof.Gen.KernelIdeal
import proofs.«176933_g20486994002744_cont_8to1_9_11_alg».proof.Proof.Gen.ReferenceIdeal
import proofs.«176933_g20486994002744_cont_8to1_9_11_alg».proof.Proof.Gen.Pre_finite_inputs
import proofs.«176933_g20486994002744_cont_8to1_9_11_alg».proof.Proof.Gen.ReferenceIdeal.Run
import proofs.«176933_g20486994002744_cont_8to1_9_11_alg».proof.Proof.Gen.ReferenceIdeal.Read
import proofs.«176933_g20486994002744_cont_8to1_9_11_alg».proof.Proof.KernelBody
import proofs.«176933_g20486994002744_cont_8to1_9_11_alg».proof.Proof.NamedRun
import proofs.«176933_g20486994002744_cont_8to1_9_11_alg».proof.Proof.Bridge
import proofs.«176933_g20486994002744_cont_8to1_9_11_alg».proof.Proof.RefValue
import proofs.«176933_g20486994002744_cont_8to1_9_11_alg».proof.Proof.Finite

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Hand.frame (F := Bits) m ρ

/-- The idealized kernel runs and leaves its arguments unchanged. -/
theorem frame_kernelIdeal : Cert.frame_KernelIdeal := fun m ρ _ => Cert.KernelIdeal.Hand.frame (F := Ideal) m ρ

/-- The reference runs and leaves its arguments unchanged: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories that agree on the arguments both programs end with the specification's two arrays: the kernel's
    named results are the specification's because the precondition makes the three matrices of the triple product real,
    and the reference's two result terms are the specification's read one operation at a time. -/
theorem algebraic : Cert.algebraic_KernelIdeal_ReferenceIdeal := by
  intro m ρ m' ρ' hpre hagree
  refine ⟨fun c => Cert.KernelIdeal.Hand.muOut (F := Ideal) m c, fun c => Cert.KernelIdeal.Hand.sigOut (F := Ideal) m c,
    Cert.KernelIdeal.Hand.run_named (F := Ideal) m ρ, ?_⟩
  refine (θ_run Cert.ReferenceIdeal.defs _ _).mono (fun _ h c => ?_) (Cert.ReferenceIdeal.Value.run (F := Ideal) m' ρ')
  obtain ⟨hx, hadj, hW1⟩ := Cert.KernelIdeal.Finite.real_of_pre m hpre c
  refine ⟨(h c).1.trans ?_, (h c).2.1.trans ?_, (h c).2.2⟩
  · rw [Cert.ReferenceIdeal.Read.val_main_v11_eq, Cert.ReferenceIdeal.RefValue.mu_eq,
      (hagree c).1, (hagree c).2.1, (hagree c).2.2.1, (hagree c).2.2.2.1, (hagree c).2.2.2.2.1, (hagree c).2.2.2.2.2.1]
    exact (Cert.KernelIdeal.Bridge.muOut_eq m c hx hadj hW1).symm
  · rw [Cert.ReferenceIdeal.Read.val_main_v17_eq, Cert.ReferenceIdeal.RefValue.sig_eq,
      (hagree c).1, (hagree c).2.1, (hagree c).2.2.1, (hagree c).2.2.2.1, (hagree c).2.2.2.2.2.2.1, (hagree c).2.2.2.2.2.2.2]
    exact (Cert.KernelIdeal.Bridge.sigOut_eq m c hx hadj hW1).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
